-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256x7 : Shape := ⟨2, ![256, 7]⟩
abbrev S7 : Shape := ⟨1, ![7]⟩
abbrev S7x512 : Shape := ⟨2, ![7, 512]⟩
abbrev S512 : Shape := ⟨1, ![512]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_
  bcast_S_S7x512 : S_.BroadcastsInDim S7x512 (![] : Fin 0 → Fin S7x512.rank)
  reducesTo_S7x512_S_d0_1 : S7x512.ReducesTo [0, 1] S_
  bcast_S_S512 : S_.BroadcastsInDim S512 (![] : Fin 0 → Fin S512.rank)
  reducesTo_S512_S_d0 : S512.ReducesTo [0] S_
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg2 : IVec S3200000 32) (main_v31 : IVec S_ 1) (main_v32 : IVec S3200000 32) : IVec S_ 1 :=
  let main_v33 : IVec S3200000 1 := cmpi .sge main_arg2 main_v32
  let main_c_13 : IVec S_ 1 := constantI S_ 1 1#1
  let main_v34 : IVec S_ 1 := (fun x v => Host.reduce IntOp.andi x v reducesTo_S3200000_S_d0 h_S_) main_v33 main_c_13
  let main_v35 : IVec S_ 1 := andi main_v31 main_v34
  let main_c_14 : IVec S_ 32 := constantI S_ 32 100000#32
  let main_v36 : IVec S3200000 32 := broadcastInDim S3200000 ![] bcast_S_S3200000 main_c_14
  let main_v37 : IVec S3200000 1 := cmpi .slt main_arg2 main_v36
  let main_c_15 : IVec S_ 1 := constantI S_ 1 1#1
  let main_v38 : IVec S_ 1 := (fun x v => Host.reduce IntOp.andi x v reducesTo_S3200000_S_d0 h_S_) main_v37 main_c_15
  let main_v39 : IVec S_ 1 := andi main_v35 main_v38
  main_v39

def fn_part1 {F : FTy → Type} [FloatOps F] (main_arg1 : IVec S3200000 32) (main_arg2 : IVec S3200000 32) (main_arg6 : FVec F S512 .f32) (main_v13 : IVec S_ 1) (main_v16 : IVec S7x512 1) : IVec S_ 1 :=
  let main_c_5 : IVec S_ 1 := constantI S_ 1 1#1
  let main_v17 : IVec S_ 1 := (fun x v => Host.reduce IntOp.andi x v reducesTo_S7x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S3200000 32 := broadcastInDim S3200000 ![] bcast_S_S3200000 main_c_8
  let main_v25 : IVec S3200000 1 := cmpi .sge main_arg1 main_v24
  let main_c_9 : IVec S_ 1 := constantI S_ 1 1#1
  let main_v26 : IVec S_ 1 := (fun x v => Host.reduce IntOp.andi x v reducesTo_S3200000_S_d0 h_S_) main_v25 main_c_9
  let main_v27 : IVec S_ 1 := andi main_v23 main_v26
  let main_c_10 : IVec S_ 32 := constantI S_ 32 100000#32
  let main_v28 : IVec S3200000 32 := broadcastInDim S3200000 ![] bcast_S_S3200000 main_c_10
  let main_v29 : IVec S3200000 1 := cmpi .slt main_arg1 main_v28
  let main_c_11 : IVec S_ 1 := constantI S_ 1 1#1
  let main_v30 : IVec S_ 1 := (fun x v => Host.reduce IntOp.andi x v reducesTo_S3200000_S_d0 h_S_) main_v29 main_c_11
  let main_v31 : IVec S_ 1 := andi main_v27 main_v30
  let main_c_12 : IVec S_ 32 := constantI S_ 32 0#32
  let main_v32 : IVec S3200000 32 := broadcastInDim S3200000 ![] bcast_S_S3200000 main_c_12
  fn_part2 (F := F) main_arg2 main_v31 main_v32

def fn {F : FTy → Type} [FloatOps F] (main_arg0 : FVec F S100000x256 .f32) (main_arg1 : IVec S3200000 32) (main_arg2 : IVec S3200000 32) (main_arg3 : FVec F S256x7 .f32) (main_arg4 : FVec F S7 .f32) (main_arg5 : FVec F S7x512 .f32) (main_arg6 : FVec F S512 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x7 .f32 := Host.absf main_arg3
  let main_cst_0 : FVec F S_ .f32 := constant S_ .f32 0x7F800000#32
  let main_v5 : FVec F S256x7 .f32 := broadcastInDim S256x7 ![] bcast_S_S256x7 main_cst_0
  let main_v6 : IVec S256x7 1 := cmpf .olt main_v4 main_v5
  let main_c_1 : IVec S_ 1 := constantI S_ 1 1#1
  let main_v7 : IVec S_ 1 := (fun x v => Host.reduce IntOp.andi x v reducesTo_S256x7_S_d0_1 h_S_) main_v6 main_c_1
  let main_v8 : IVec S_ 1 := andi main_v3 main_v7
  let main_v9 : FVec F S7 .f32 := Host.absf main_arg4
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S7x512 .f32 := Host.absf main_arg5
  let main_cst_4 : FVec F S_ .f32 := constant S_ .f32 0x7F800000#32
  let main_v15 : FVec F S7x512 .f32 := broadcastInDim S7x512 ![] bcast_S_S7x512 main_cst_4
  let main_v16 : IVec S7x512 1 := cmpf .olt main_v14 main_v15
  fn_part1 (F := F) main_arg1 main_arg2 main_arg6 main_v13 main_v16
-- ==== Kernel.lean ====
abbrev S100000x256 : Shape := ⟨2, ![100000, 256]⟩
abbrev S3200000 : Shape := ⟨1, ![3200000]⟩
abbrev S256x7 : Shape := ⟨2, ![256, 7]⟩
abbrev S7 : Shape := ⟨1, ![7]⟩
abbrev S7x512 : Shape := ⟨2, ![7, 512]⟩
abbrev S512 : Shape := ⟨1, ![512]⟩
abbrev S_ : Shape := ⟨0, ![]⟩
abbrev S100000 : Shape := ⟨1, ![100000]⟩
abbrev S3200000x1 : Shape := ⟨2, ![3200000, 1]⟩
abbrev S1 : Shape := ⟨1, ![1]⟩
abbrev S1x1 : Shape := ⟨2, ![1, 1]⟩
abbrev S3200000x2 : Shape := ⟨2, ![3200000, 2]⟩
abbrev S100000x2 : Shape := ⟨2, ![100000, 2]⟩
abbrev S100000x1 : Shape := ⟨2, ![100000, 1]⟩
abbrev S1x100000 : Shape := ⟨2, ![1, 100000]⟩
abbrev S102400x256 : Shape := ⟨2, ![102400, 256]⟩
abbrev S1x102400 : Shape := ⟨2, ![1, 102400]⟩
abbrev S1x7 : Shape := ⟨2, ![1, 7]⟩
abbrev S8x1x7 : Shape := ⟨3, ![8, 1, 7]⟩
abbrev S12800x256 : Shape := ⟨2, ![12800, 256]⟩
abbrev S1x12800 : Shape := ⟨2, ![1, 12800]⟩
abbrev S1x1x7 : Shape := ⟨3, ![1, 1, 7]⟩
abbrev S12800x7 : Shape := ⟨2, ![12800, 7]⟩
abbrev S8x7 : Shape := ⟨2, ![8, 7]⟩
abbrev S1x512 : Shape := ⟨2, ![1, 512]⟩

abbrev nBuf : Space → Nat
  | .hbm => 86
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x7, .f32⟩
  | .hbm, ⟨4, _⟩ => ⟨S7, .f32⟩
  | .hbm, ⟨5, _⟩ => ⟨S7x512, .f32⟩
  | .hbm, ⟨6, _⟩ => ⟨S512, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S1, .i32⟩
  | .hbm, ⟨32, _⟩ => ⟨S_, .i32⟩
  | .hbm, ⟨33, _⟩ => ⟨S3200000x1, .i32⟩
  | .hbm, ⟨34, _⟩ => ⟨S3200000x1, .i1⟩
  | .hbm, ⟨35, _⟩ => ⟨S1x1, .i32⟩
  | .hbm, ⟨36, _⟩ => ⟨S3200000x1, .i32⟩
  | .hbm, ⟨37, _⟩ => ⟨S3200000x1, .i1⟩
  | .hbm, ⟨38, _⟩ => ⟨S3200000x1, .i1⟩
  | .hbm, ⟨39, _⟩ => ⟨S_, .i1⟩
  | .hbm, ⟨40, _⟩ => ⟨S3200000, .i1⟩
  | .hbm, ⟨41, _⟩ => ⟨S3200000, .f32⟩
  | .hbm, ⟨42, _⟩ => ⟨S_, .f32⟩
  | .hbm, ⟨43, _⟩ => ⟨S3200000, .f32⟩
  | .hbm, ⟨44, _⟩ => ⟨S3200000, .f32⟩
  | .hbm, ⟨45, _⟩ => ⟨S3200000x1, .f32⟩
  | .hbm, ⟨46, _⟩ => ⟨S3200000x1, .f32⟩
  | .hbm, ⟨47, _⟩ => ⟨S3200000x2, .f32⟩
  | .hbm, ⟨48, _⟩ => ⟨S_, .f32⟩
  | .hbm, ⟨49, _⟩ => ⟨S100000x2, .f32⟩
  | .hbm, ⟨50, _⟩ => ⟨S3200000x1, .i32⟩
  | .hbm, ⟨51, _⟩ => ⟨S100000x2, .f32⟩
  | .hbm, ⟨52, _⟩ => ⟨S100000x1, .f32⟩
  | .hbm, ⟨53, _⟩ => ⟨S100000, .f32⟩
  | .hbm, ⟨54, _⟩ => ⟨S100000x1, .f32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .i1⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000, .f32⟩
  | .hbm, ⟨67, _⟩ => ⟨S1x100000, .f32⟩
  | .hbm, ⟨68, _⟩ => ⟨S_, .i32⟩
  | .hbm, ⟨69, _⟩ => ⟨S_, .f32⟩
  | .hbm, ⟨70, _⟩ => ⟨S102400x256, .f32⟩
  | .hbm, ⟨71, _⟩ => ⟨S_, .i32⟩
  | .hbm, ⟨72, _⟩ => ⟨S_, .f32⟩
  | .hbm, ⟨73, _⟩ => ⟨S1x102400, .f32⟩
  | .hbm, ⟨74, _⟩ => ⟨S1x7, .f32⟩
  | .hbm, ⟨75, _⟩ => ⟨S8x1x7, .f32⟩
  | .hbm, ⟨76, _⟩ => ⟨S8x7, .f32⟩
  | .hbm, ⟨77, _⟩ => ⟨S_, .f32⟩
  | .hbm, ⟨78, _⟩ => ⟨S7, .f32⟩
  | .hbm, ⟨79, _⟩ => ⟨S1x7, .f32⟩
  | .hbm, ⟨80, _⟩ => ⟨S1x512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S1x512, .f32⟩
  | .hbm, ⟨85, _⟩ => ⟨S1x512, .f32⟩
  | .local _ .vmem, ⟨0, _⟩ => ⟨S12800x256, .f32⟩
  | .local _ .vmem, ⟨1, _⟩ => ⟨S12800x256, .f32⟩
  | .local _ .vmem, ⟨2, _⟩ => ⟨S256x7, .f32⟩
  | .local _ .vmem, ⟨3, _⟩ => ⟨S1x7, .f32⟩
  | .local _ .vmem, ⟨4, _⟩ => ⟨S1x12800, .f32⟩
  | .local _ .vmem, ⟨5, _⟩ => ⟨S1x12800, .f32⟩
  | .local _ .vmem, ⟨6, _⟩ => ⟨S1x1x7, .f32⟩
  | .local _ .vmem, ⟨7, _⟩ => ⟨S1x1x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_4 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_5 : Ref sig .tc := ⟨.hbm, 56, rfl⟩
abbrev main_v20 : Ref sig .tc := ⟨.hbm, 57, rfl⟩
abbrev main_v21 : Ref sig .tc := ⟨.hbm, 58, rfl⟩
abbrev main_cst_6 : Ref sig .tc := ⟨.hbm, 59, rfl⟩
abbrev main_v22 : Ref sig .tc := ⟨.hbm, 60, rfl⟩
abbrev main_v23 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c : Ref sig .tc := ⟨.hbm, 68, rfl⟩
abbrev main_call3_v0 : Ref sig .tc := ⟨.hbm, 69, rfl⟩
abbrev main_v27 : Ref sig .tc := ⟨.hbm, 70, rfl⟩
abbrev main_c_8 : Ref sig .tc := ⟨.hbm, 71, rfl⟩
abbrev main_call4_v0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_9 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_10 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12800x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  concatenates_S3200000x1_S3200000x1_S3200000x2_d1 : Shape.Concatenates [S3200000x1, S3200000x1] S3200000x2 1
  bcast_S_S100000x2 : S_.BroadcastsInDim S100000x2 (![] : Fin 0 → Fin S100000x2.rank)
  slices_S100000x2_S100000x1_0_0 : S100000x2.Slices ![0, 0] S100000x1
  shapeCasts_S100000x1_S100000 : S100000x1.ShapeCasts S100000
  slices_S100000x2_S100000x1_0_1 : S100000x2.Slices ![0, 1] S100000x1
  shapeCasts_S100000_S1x100000 : S100000.ShapeCasts S1x100000
  pads_S100000x256_S102400x256_024000_000 : S100000x256.Pads (![0, 0] : Fin 2 → Nat) ![2400, 0] ![0, 0] S102400x256
  pads_S1x100000_S1x102400_000_024000 : S1x100000.Pads (![0, 0] : Fin 2 → Nat) ![0, 2400] ![0, 0] S1x102400
  shapeCasts_S7_S1x7 : S7.ShapeCasts S1x7
  inb_S12800x256_S12800x256_0_0 : ∀ a, (![0, 0] : Fin 2 → Nat) a + S12800x256.size a ≤ S12800x256.size a
  h_S12800x256 : 0 < S12800x256.numel
  shapeCasts_S12800x256_S12800x256 : S12800x256.ShapeCasts S12800x256
  inb_S256x7_S256x7_0_0 : ∀ a, (![0, 0] : Fin 2 → Nat) a + S256x7.size a ≤ S256x7.size a
  h_S256x7 : 0 < S256x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S12800x7 : S1x7.Broadcasts S12800x7
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  shapeCasts_S1x7_S1x1x7 : S1x7.ShapeCasts S1x1x7
  inb_S1x1x7_S1x1x7_0_0_0 : ∀ a, (![0, 0, 0] : Fin 3 → Nat) a + S1x1x7.size a ≤ S1x1x7.size a
  h_S1x1x7 : 0 < S1x1x7.numel
  shapeCasts_S8x1x7_S8x7 : S8x1x7.ShapeCasts S8x7
  reducesTo_S8x7_S7_d0 : S8x7.ReducesTo [0] S7
  bcast_S7_S1x7_1 : S7.BroadcastsInDim S1x7 (![1] : Fin 1 → Fin S1x7.rank)
  bcast_S_S512 : S_.BroadcastsInDim S512 (![] : Fin 0 → Fin S512.rank)
  shapeCasts_S512_S1x512 : S512.ShapeCasts S1x512
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  scatter_S100000x2_S3200000x1_S3200000x2_1_0_0_1_wf : ScatterDims.WF S100000x2 S3200000x1 S3200000x2 [1] [0] [0] 1
  dot_S12800x256_S256x7_S12800x7_1_0_0_1_n_n_wf : DotDims.WF S12800x256 S256x7 S12800x7 [1] [0] [0] [1] [] []
  dot_S1x12800_S12800x7_S1x7_1_0_0_1_n_n_wf : DotDims.WF S1x12800 S12800x7 S1x7 [1] [0] [0] [1] [] []
  dot_S1x7_S7x512_S1x512_1_0_0_1_n_n_wf : DotDims.WF S1x7 S7x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x256.size a ≤ S102400x256.size a
  hwx0_0 : ∀ i : grid0.Coords, EltTy.bits .f32 = 32 ∨ (Rect.block (s := S102400x256) S12800x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x7.size a ≤ S256x7.size a
  hwx0_1 : ∀ i : grid0.Coords, EltTy.bits .f32 = 32 ∨ (Rect.block (s := S256x7) S256x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12800.size a ≤ S1x102400.size a
  hwx0_3 : ∀ i : grid0.Coords, EltTy.bits .f32 = 32 ∨ (Rect.block (s := S1x102400) S1x12800.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x7.size a ≤ S8x1x7.size a
  hwx0_4 : ∀ i : grid0.Coords, EltTy.bits .f32 = 32 ∨ (Rect.block (s := S8x1x7) S1x1x7.size (cc0_transform_4 i) (hinb0_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S12800x256_S256x7_S12800x7_1_0_0_1_n_n : DotDims S12800x256 S256x7 S12800x7 where
  lhsContracting := [1]
  rhsContracting := [0]
  lhsNonContracting := [0]
  rhsNonContracting := [1]
  lhsBatch := []
  rhsBatch := []
  wf := dot_S12800x256_S256x7_S12800x7_1_0_0_1_n_n_wf
def dot_S1x12800_S12800x7_S1x7_1_0_0_1_n_n : DotDims S1x12800 S12800x7 S1x7 where
  lhsContracting := [1]
  rhsContracting := [0]
  lhsNonContracting := [0]
  rhsNonContracting := [1]
  lhsBatch := []
  rhsBatch := []
  wf := dot_S1x12800_S12800x7_S1x7_1_0_0_1_n_n_wf
def dot_S1x7_S7x512_S1x512_1_0_0_1_n_n : DotDims S1x7 S7x512 S1x512 where
  lhsContracting := [1]
  rhsContracting := [0]
  lhsNonContracting := [0]
  rhsNonContracting := [1]
  lhsBatch := []
  rhsBatch := []
  wf := dot_S1x7_S7x512_S1x512_1_0_0_1_n_n_wf

abbrev win0_0 : Pipeline.Window sig grid0 :=
  Pipeline.Window.ofSpec (Memref.whole main_v27) S12800x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x12800.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x1x7.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S3200000 : Shape := ⟨1, ![3200000]⟩
abbrev S256x7 : Shape := ⟨2, ![256, 7]⟩
abbrev S7 : Shape := ⟨1, ![7]⟩
abbrev S7x512 : Shape := ⟨2, ![7, 512]⟩
abbrev S512 : Shape := ⟨1, ![512]⟩
abbrev S_ : Shape := ⟨0, ![]⟩
abbrev S100000 : Shape := ⟨1, ![100000]⟩
abbrev S3200000x1 : Shape := ⟨2, ![3200000, 1]⟩
abbrev S100000x7 : Shape := ⟨2, ![100000, 7]⟩
abbrev S1x7 : Shape := ⟨2, ![1, 7]⟩
abbrev S100000x1 : Shape := ⟨2, ![100000, 1]⟩
abbrev S3200000x7 : Shape := ⟨2, ![3200000, 7]⟩
abbrev S100000x512 : Shape := ⟨2, ![100000, 512]⟩
abbrev S1x512 : Shape := ⟨2, ![1, 512]⟩

abbrev nBuf : Space → Nat
  | .hbm => 75
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x7, .f32⟩
  | .hbm, ⟨4, _⟩ => ⟨S7, .f32⟩
  | .hbm, ⟨5, _⟩ => ⟨S7x512, .f32⟩
  | .hbm, ⟨6, _⟩ => ⟨S512, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x7, .f32⟩
  | .hbm, ⟨38, _⟩ => ⟨S1x7, .f32⟩
  | .hbm, ⟨39, _⟩ => ⟨S100000x7, .f32⟩
  | .hbm, ⟨40, _⟩ => ⟨S100000x7, .f32⟩
  | .hbm, ⟨41, _⟩ => ⟨S100000x7, .f32⟩
  | .hbm, ⟨42, _⟩ => ⟨S100000x7, .f32⟩
  | .hbm, ⟨43, _⟩ => ⟨S_, .f32⟩
  | .hbm, ⟨44, _⟩ => ⟨S100000x7, .f32⟩
  | .hbm, ⟨45, _⟩ => ⟨S100000x7, .f32⟩
  | .hbm, ⟨46, _⟩ => ⟨S_, .f32⟩
  | .hbm, ⟨47, _⟩ => ⟨S100000x7, .f32⟩
  | .hbm, ⟨48, _⟩ => ⟨S100000x7, .f32⟩
  | .hbm, ⟨49, _⟩ => ⟨S100000x1, .f32⟩
  | .hbm, ⟨50, _⟩ => ⟨S100000x7, .f32⟩
  | .hbm, ⟨51, _⟩ => ⟨S100000x7, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x7, .f32⟩
  | .hbm, ⟨61, _⟩ => ⟨S_, .f32⟩
  | .hbm, ⟨62, _⟩ => ⟨S100000x7, .f32⟩
  | .hbm, ⟨63, _⟩ => ⟨S3200000x1, .i32⟩
  | .hbm, ⟨64, _⟩ => ⟨S100000x7, .f32⟩
  | .hbm, ⟨65, _⟩ => ⟨S100000x1, .f32⟩
  | .hbm, ⟨66, _⟩ => ⟨S100000x7, .f32⟩
  | .hbm, ⟨67, _⟩ => ⟨S100000x7, .f32⟩
  | .hbm, ⟨68, _⟩ => ⟨S100000x512, .f32⟩
  | .hbm, ⟨69, _⟩ => ⟨S1x512, .f32⟩
  | .hbm, ⟨70, _⟩ => ⟨S100000x512, .f32⟩
  | .hbm, ⟨71, _⟩ => ⟨S100000x512, .f32⟩
  | .hbm, ⟨72, _⟩ => ⟨S_, .f32⟩
  | .hbm, ⟨73, _⟩ => ⟨S512, .f32⟩
  | .hbm, ⟨74, _⟩ => ⟨S1x512, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S_S100000x7 : S_.BroadcastsInDim S100000x7 (![] : Fin 0 → Fin S100000x7.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S512_d0 : S100000x512.ReducesTo [0] S512
  h_S_ : 0 < S_.numel
  scatter_S100000_S3200000x1_S3200000_n_0_0_1_wf : ScatterDims.WF S100000 S3200000x1 S3200000 [] [0] [0] 1
  dot_S100000x256_S256x7_S100000x7_1_0_0_1_n_n_wf : DotDims.WF S100000x256 S256x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  dot_S100000x7_S7x512_S100000x512_1_0_0_1_n_n_wf : DotDims.WF S100000x7 S7x512 S100000x512 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x7_S100000x7_1_0_0_1_n_n : DotDims S100000x256 S256x7 S100000x7 where
  lhsContracting := [1]
  rhsContracting := [0]
  lhsNonContracting := [0]
  rhsNonContracting := [1]
  lhsBatch := []
  rhsBatch := []
  wf := dot_S100000x256_S256x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf
def dot_S100000x7_S7x512_S100000x512_1_0_0_1_n_n : DotDims S100000x7 S7x512 S100000x512 where
  lhsContracting := [1]
  rhsContracting := [0]
  lhsNonContracting := [0]
  rhsNonContracting := [1]
  lhsBatch := []
  rhsBatch := []
  wf := dot_S100000x7_S7x512_S100000x512_1_0_0_1_n_n_wf

class Facts : Prop extends Facts₀ where

variable [Facts]
-- ==== Proof.Common.lean ====
import Idealize.ShloMosaic.PureOps.Ideal
import Idealize.ShloMosaic.PureOps.Ideal.Laws
import Idealize.ShloMosaic.Lib.ValueIdx

/-!
# The two programs' result as closed formulas

A graph of 100000 nodes and 3200000 directed edges `e : src e → dst e`; node features `x : [100000, 256]`; a gating layer
`Wg, bg` into 7 channels; an output layer `W, b` into 512 channels. Everything is read on the extended reals.

* `deg ids v`: how many edges have the endpoint word `ids e` equal to node `v` (a sum of ones, started at zero).
* `norm c`: `c ^ (-1/2)` where `c > 0`, else `0` (the symmetric degree normalisation).
* `gate x Wg bg n k`: the logistic function of `x[n, :] · Wg[:, k] + bg[k]`.
* `refOut`: per destination node `v` the sum over the edges into `v` of `gate (src e) · ns (src e)`, scaled by `nd v`,
  contracted with `W`, plus `b`, summed over all nodes.
* `kerOut`: the per-node weight `ws n = (Σ_{e : src e = n} nd (dst e)) · ns n`, the nodes padded to 8 blocks of 12800 by
  zero weights and zero feature rows, per block the weighted sum of the gates, the blocks summed, contracted with `W`,
  plus `100000 · b`.
-/

open scoped BigOperators

noncomputable section

namespace Cert.Graph

open Idealize.ShloMosaic Idealize.ShloMosaic.ValueIdx

abbrev SX : Shape := ⟨2, ![100000, 256]⟩
abbrev SE : Shape := ⟨1, ![3200000]⟩
abbrev SWg : Shape := ⟨2, ![256, 7]⟩
abbrev Sbg : Shape := ⟨1, ![7]⟩
abbrev SW : Shape := ⟨2, ![7, 512]⟩
abbrev Sb : Shape := ⟨1, ![512]⟩

/-- The float literal `1.0`. -/
def one : EReal := Ideal.ofBits .f32 0x3F800000#32
/-- The float literal `-0.5`. -/
def negHalf : EReal := Ideal.ofBits .f32 0xBF000000#32
/-- The float literal `100000.0`. -/
def nNodes : EReal := Ideal.ofBits .f32 0x47C35000#32

/-- The node a 32-bit endpoint word names: read signed, clamped into the node range. For a word already in range it is
    the word's own value. -/
def node (w : BitVec 32) : Fin 100000 := ⟨min w.toInt.toNat 99999, by omega⟩

/-- The number of edges whose endpoint word reads `v`: a sum of ones over them, from zero. -/
def deg (ids : SE.Idx → BitVec 32) (v : Fin 100000) : EReal :=
  0 + ∑ e ∈ Finset.univ.filter (fun e : Fin 3200000 => (ids (ix1 e)).toInt = (v.val : Int)), one

/-- `c ^ (-1/2)` where `c > 0`, else zero. -/
def norm (c : EReal) : EReal :=
  Scalar.select (Ideal.cmp .ogt c 0) (Ideal.pow c negHalf) 0

/-- The gating layer at node `n`, channel `k`: the logistic function of `x[n, :] · Wg[:, k] + bg[k]`, with the literal
    `1.0` as the reference spells it. -/
def gate (x : SX.Idx → EReal) (Wg : SWg.Idx → EReal) (bg : Sbg.Idx → EReal) (n : Fin 100000) (k : Fin 7) : EReal :=
  Ideal.div one (one + Ideal.exp (-((∑ c : Fin 256, x (ix2 n c) * Wg (ix2 c k)) + bg (ix1 k))))

/-- The reference's result at output channel `j`. -/
def refOut (x : SX.Idx → EReal) (src dst : SE.Idx → BitVec 32) (Wg : SWg.Idx → EReal) (bg : Sbg.Idx → EReal)
    (W : SW.Idx → EReal) (b : Sb.Idx → EReal) (j : Fin 512) : EReal :=
  0 + ∑ v : Fin 100000,
    ((∑ k : Fin 7,
        ((0 + ∑ e ∈ Finset.univ.filter (fun e : Fin 3200000 => (dst (ix1 e)).toInt = (v.val : Int)),
            gate x Wg bg (node (src (ix1 e))) k * norm (deg src (node (src (ix1 e)))))
          * norm (deg dst v)) * W (ix2 k j))
      + b (ix1 j))

/-- The kernel's per-node weight: the normalised in-degrees of the heads of the edges out of `n`, summed, times the
    normalised out-degree of `n`. -/
def ws (src dst : SE.Idx → BitVec 32) (n : Fin 100000) : EReal :=
  (0 + ∑ e ∈ Finset.univ.filter (fun e : Fin 3200000 => (src (ix1 e)).toInt = (n.val : Int)),
      norm (deg dst (node (dst (ix1 e)))))
    * norm (deg src n)

/-- The weights padded with zeros to 102400 positions. -/
def wsPad (src dst : SE.Idx → BitVec 32) (n : Fin 102400) : EReal :=
  if h : n.val < 100000 then ws src dst ⟨n.val, h⟩ else 0

/-- The feature rows padded with zero rows to 102400 rows. -/
def xPad (x : SX.Idx → EReal) (n : Fin 102400) (c : Fin 256) : EReal :=
  if h : n.val < 100000 then x (ix2 ⟨n.val, h⟩ c) else 0

/-- The gating layer on the padded rows, as the kernel body spells it. -/
def gatePad (x : SX.Idx → EReal) (Wg : SWg.Idx → EReal) (bg : Sbg.Idx → EReal) (n : Fin 102400) (k : Fin 7) : EReal :=
  Ideal.logistic ((∑ c : Fin 256, xPad x n c * Wg (ix2 c k)) + bg (ix1 k))

/-- Row `r` of block `g`. -/
def blockRow (g : Fin 8) (r : Fin 12800) : Fin 102400 := ⟨12800 * g.val + r.val, by omega⟩

/-- One block's partial result: the weighted sum of the gates of its 12800 rows. -/
def partial7 (x : SX.Idx → EReal) (src dst : SE.Idx → BitVec 32) (Wg : SWg.Idx → EReal) (bg : Sbg.Idx → EReal)
    (g : Fin 8) (k : Fin 7) : EReal :=
  ∑ r : Fin 12800, wsPad src dst (blockRow g r) * gatePad x Wg bg (blockRow g r) k

/-- The kernel's result at output channel `j`. -/
def kerOut (x : SX.Idx → EReal) (src dst : SE.Idx → BitVec 32) (Wg : SWg.Idx → EReal) (bg : Sbg.Idx → EReal)
    (W : SW.Idx → EReal) (b : Sb.Idx → EReal) (j : Fin 512) : EReal :=
  (∑ k : Fin 7, (0 + ∑ g : Fin 8, partial7 x src dst Wg bg g k) * W (ix2 k j)) + nNodes * b (ix1 j)

/-- Every endpoint word names a node. -/
def InRange (ids : SE.Idx → BitVec 32) : Prop :=
  ∀ e : Fin 3200000, 0 ≤ (ids (ix1 e)).toInt ∧ (ids (ix1 e)).toInt < 100000

end Cert.Graph

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Spec.lean ====
import proofs.«401234_j27582279975440_3_alg».proof.Proof.Common
import proofs.«401234_j27582279975440_3_alg».proof.Proof.LibRealSums
import Mathlib.Algebra.BigOperators.Fin

/-!
# The two closed formulas are one function

Under the hypotheses (every input a real number, every endpoint word the index of a node) the degrees, their
normalisations and the gates are real numbers, so sums and products may be regrouped freely.

* The padded rows: the 8 blocks of 12800 rows are the 102400 rows, each once; the rows from 100000 on carry the
  weight zero and contribute `0 * _ = 0`; on the rows below 100000 the padded gate is the gate. So the blocks' partial
  results sum to `Σ_n ws n * gate n k` over the 100000 nodes.
* Write `S e`, `D e` for the tail and the head of edge `e`. Both formulas are then
  `Σ_k (Σ_e nd (D e) * ns (S e) * gate (S e) k) * W k j + 100000 * b j`: the kernel groups the edges by their tail, the
  reference by their head, and the reference's `+ b j` per node sums to `100000 * b j`.
-/

open scoped BigOperators
noncomputable section
namespace Cert.Graph
open Idealize.ShloMosaic Idealize.ShloMosaic.ValueIdx Idealize.ShloMosaic.RealSums

namespace Spec

theorem one_eq : one = 1 := by
  unfold one; simp [Ideal.ofBits, Ideal.ieee, -EReal.coe_mul]; norm_num

theorem nNodes_eq : nNodes = ((100000 : ℝ) : EReal) := by
  unfold nNodes; simp [Ideal.ofBits, Ideal.ieee, -EReal.coe_mul]; norm_num

theorem isReal_negHalf : IsReal negHalf := by
  unfold negHalf; simp [Ideal.ofBits, Ideal.ieee, -EReal.coe_mul]; exact ⟨_, rfl⟩

theorem isReal_one : IsReal one := ⟨1, by rw [one_eq, EReal.coe_one]⟩

/-! ## Endpoint words in range name their own value -/

theorem toInt_eq_iff {ids : SE.Idx → BitVec 32} (h : InRange ids) (e : Fin 3200000) (v : Fin 100000) :
    (ids (ix1 e)).toInt = (v.val : Int) ↔ node (ids (ix1 e)) = v := by
  have := h e
  rw [node, Fin.ext_iff]
  simp only
  omega

theorem filter_toInt_eq {ids : SE.Idx → BitVec 32} (h : InRange ids) (v : Fin 100000) :
    Finset.univ.filter (fun e : Fin 3200000 => (ids (ix1 e)).toInt = (v.val : Int))
      = Finset.univ.filter (fun e : Fin 3200000 => node (ids (ix1 e)) = v) :=
  Finset.filter_congr fun e _ => toInt_eq_iff h e v

/-! ## Degrees, normalisations and gates are real numbers -/

theorem isReal_deg (ids : SE.Idx → BitVec 32) (v : Fin 100000) : IsReal (deg ids v) :=
  IsReal.add IsReal.zero (IsReal.sum _ _ fun _ _ => isReal_one)

theorem isReal_norm {c : EReal} (hc : IsReal c) : IsReal (norm c) := by
  obtain ⟨r, rfl⟩ := hc
  obtain ⟨y, hy⟩ := isReal_negHalf
  unfold norm Scalar.select
  split_ifs
  · rw [hy, Ideal.pow_coe_coe]; exact IsReal.coe _
  · exact IsReal.zero

theorem isReal_gate (x : SX.Idx → EReal) (Wg : SWg.Idx → EReal) (bg : Sbg.Idx → EReal)
    (hx : ∀ i, IsReal (x i)) (hWg : ∀ i, IsReal (Wg i)) (hbg : ∀ i, IsReal (bg i)) (n : Fin 100000) (k : Fin 7) :
    IsReal (gate x Wg bg n k) := by
  obtain ⟨z, hz⟩ : IsReal ((∑ c : Fin 256, x (ix2 n c) * Wg (ix2 c k)) + bg (ix1 k)) :=
    IsReal.add (IsReal.sum _ _ fun c _ => (hx _).mul (hWg _)) (hbg _)
  have : gate x Wg bg n k = Ideal.logistic (z : EReal) := by
    rw [gate, hz, one_eq, Ideal.logistic]
  rw [this, Ideal.logistic_coe]
  exact IsReal.coe _

/-! ## Regrouping the padded rows -/

/-- The eight blocks of 12800 rows are the 102400 rows, each once. -/
def blockEquiv : Fin 8 × Fin 12800 ≃ Fin 102400 where
  toFun p := blockRow p.1 p.2
  invFun n := (⟨n.val / 12800, by omega⟩, ⟨n.val % 12800, by omega⟩)
  left_inv p := by
    obtain ⟨g, r⟩ := p
    refine Prod.ext (Fin.ext ?_) (Fin.ext ?_) <;> simp only [blockRow] <;> omega
  right_inv n := by
    refine Fin.ext ?_
    simp only [blockRow]
    omega

theorem sum_blocks {M : Type*} [AddCommMonoid M] (f : Fin 102400 → M) :
    ∑ g : Fin 8, ∑ r : Fin 12800, f (blockRow g r) = ∑ n : Fin 102400, f n := by
  rw [← Fintype.sum_prod_type']
  exact Fintype.sum_equiv blockEquiv _ _ fun _ => rfl

/-- A sum over `b` positions of a family that vanishes from position `a` on is the sum over its first `a` positions. -/
theorem sum_pad {M : Type*} [AddCommMonoid M] {a b : ℕ} (hab : a ≤ b) (G : Fin a → M) :
    ∑ n : Fin b, (if h : n.val < a then G ⟨n.val, h⟩ else 0) = ∑ m : Fin a, G m := by
  obtain ⟨c, rfl⟩ := Nat.exists_eq_add_of_le hab
  rw [Fin.sum_univ_add]
  have h1 : ∀ i : Fin a, (if h : (Fin.castAdd c i).val < a then G ⟨(Fin.castAdd c i).val, h⟩ else 0) = G i := fun i => by
    rw [dif_pos (by simp)]; rfl
  have h2 : ∀ i : Fin c, (if h : (Fin.natAdd a i).val < a then G ⟨(Fin.natAdd a i).val, h⟩ else 0) = 0 := fun i => by
    rw [dif_neg (by simp)]
  simp only [h1, h2, Finset.sum_const_zero, add_zero]

theorem gatePad_eq (x : SX.Idx → EReal) (Wg : SWg.Idx → EReal) (bg : Sbg.Idx → EReal) (n : Fin 102400)
    (h : n.val < 100000) (k : Fin 7) : gatePad x Wg bg n k = gate x Wg bg ⟨n.val, h⟩ k := by
  simp only [gatePad, gate, xPad, dif_pos h, Ideal.logistic, one_eq]

theorem pad_term (x : SX.Idx → EReal) (src dst : SE.Idx → BitVec 32) (Wg : SWg.Idx → EReal) (bg : Sbg.Idx → EReal)
    (n : Fin 102400) (k : Fin 7) :
    wsPad src dst n * gatePad x Wg bg n k
      = if h : n.val < 100000 then ws src dst ⟨n.val, h⟩ * gate x Wg bg ⟨n.val, h⟩ k else 0 := by
  by_cases h : n.val < 100000
  · rw [dif_pos h, wsPad, dif_pos h, gatePad_eq x Wg bg n h]
  · rw [dif_neg h, wsPad, dif_neg h, zero_mul]

theorem sum_partial7 (x : SX.Idx → EReal) (src dst : SE.Idx → BitVec 32) (Wg : SWg.Idx → EReal) (bg : Sbg.Idx → EReal)
    (k : Fin 7) :
    ∑ g : Fin 8, partial7 x src dst Wg bg g k = ∑ n : Fin 100000, ws src dst n * gate x Wg bg n k := by
  unfold partial7
  rw [sum_blocks (fun n => wsPad src dst n * gatePad x Wg bg n k)]
  simp only [pad_term]
  exact sum_pad (by norm_num) (fun n : Fin 100000 => ws src dst n * gate x Wg bg n k)

/-! ## The identity among real numbers -/

/-- Summing, over the values `n` of `g`, the fibre sums scaled by `c n` is summing every term scaled by `c (g e)`. -/
theorem fiber_sum {E N : Type*} [Fintype E] [Fintype N] [DecidableEq N] (g : E → N) (c : N → ℝ) (f : E → ℝ) :
    ∑ n, (∑ e ∈ Finset.univ.filter (fun e => g e = n), f e) * c n = ∑ e, f e * c (g e) := by
  rw [← Finset.sum_fiberwise Finset.univ g (fun e => f e * c (g e))]
  refine Finset.sum_congr rfl fun n _ => ?_
  rw [Finset.sum_mul]
  refine Finset.sum_congr rfl fun e he => ?_
  rw [(Finset.mem_filter.1 he).2]

/-- Both programs sum `nd (D e) · ns (S e) · h (S e) k` over the edges: one grouped by tail, the other by head. -/
theorem real_identity {E N K : Type*} [Fintype E] [Fintype N] [Fintype K] [DecidableEq N]
    (S D : E → N) (nd ns : N → ℝ) (h : N → K → ℝ) (w : K → ℝ) (b : ℝ) :
    (∑ k, (∑ n, ((∑ e ∈ Finset.univ.filter (fun e => S e = n), nd (D e)) * ns n) * h n k) * w k)
        + (Fintype.card N : ℝ) * b
      = ∑ v, ((∑ k, ((∑ e ∈ Finset.univ.filter (fun e => D e = v), h (S e) k * ns (S e)) * nd v) * w k) + b) := by
  rw [Finset.sum_add_distrib, Finset.sum_const, Finset.card_univ, nsmul_eq_mul, Finset.sum_comm]
  congr 1
  refine Finset.sum_congr rfl fun k _ => ?_
  rw [← Finset.sum_mul]
  congr 1
  have h1 : ∑ n, ((∑ e ∈ Finset.univ.filter (fun e => S e = n), nd (D e)) * ns n) * h n k
      = ∑ e, nd (D e) * (ns (S e) * h (S e) k) := by
    rw [← fiber_sum S (fun n => ns n * h n k) (fun e => nd (D e))]
    exact Finset.sum_congr rfl fun n _ => by ring
  have h2 : ∑ v, (∑ e ∈ Finset.univ.filter (fun e => D e = v), h (S e) k * ns (S e)) * nd v
      = ∑ e, (h (S e) k * ns (S e)) * nd (D e) := fiber_sum D nd _
  rw [h1, h2]
  exact Finset.sum_congr rfl fun e _ => by ring

end Spec

open Spec

/-! ## The two closed formulas agree -/

theorem kerOut_eq_refOut (x : SX.Idx → EReal) (src dst : SE.Idx → BitVec 32) (Wg : SWg.Idx → EReal) (bg : Sbg.Idx → EReal)
    (W : SW.Idx → EReal) (b : Sb.Idx → EReal)
    (hx : ∀ i, IsReal (x i)) (hWg : ∀ i, IsReal (Wg i)) (hbg : ∀ i, IsReal (bg i)) (hW : ∀ i, IsReal (W i)) (hb : ∀ i, IsReal (b i))
    (hs : InRange src) (hd : InRange dst) (j : Fin 512) :
    kerOut x src dst Wg bg W b j = refOut x src dst Wg bg W b j := by
  choose ns hns using fun n => isReal_norm (isReal_deg src n)
  choose nd hnd using fun n => isReal_norm (isReal_deg dst n)
  choose h hh using isReal_gate x Wg bg hx hWg hbg
  choose w hw using fun k : Fin 7 => hW (ix2 k j)
  obtain ⟨b', hb'⟩ := hb (ix1 j)
  unfold kerOut refOut
  simp only [sum_partial7, ws, filter_toInt_eq hs, filter_toInt_eq hd, hns, hnd, hh, hw, hb', nNodes_eq, zero_add,
    ← coe_sum, ← EReal.coe_mul, ← EReal.coe_add]
  rw [EReal.coe_eq_coe_iff]
  have := real_identity (fun e : Fin 3200000 => node (src (ix1 e))) (fun e : Fin 3200000 => node (dst (ix1 e))) nd ns h w b'
  rw [Fintype.card_fin] at this
  norm_num at this ⊢
  exact this

end Cert.Graph
end
-- ==== Proof.PreFacts.lean ====
import proofs.«401234_j27582279975440_3_alg».proof.Proof.Gen.Pre_finite_inputs
import proofs.«401234_j27582279975440_3_alg».proof.Proof.Common
import proofs.«401234_j27582279975440_3_alg».proof.Proof.LibRealSums
import Idealize.ShloMosaic.Lib.ReduceAll
import Idealize.ShloMosaic.Lib.StableHlo.Predicate

/-!
# The precondition, decoded

The precondition is a conjunction of nine `all`s: for each of the five float inputs, every entry `x` has `|x| < +∞`;
for each of the two endpoint-word inputs, every word `w` has `0 ≤ w` and `w < 100000`, read signed. On the extended
reals `|x| = max x (-x)`, and `max x (-x) < ⊤` excludes both infinities, so `x` is a real number.
-/

namespace Cert.PreFacts
open Idealize.ShloMosaic Idealize.ShloMosaic.RealSums

open Cert.Pre_finite_inputs

/-- The scalar shape has one index. -/
instance : Subsingleton S_.Idx := ⟨fun _ _ => funext fun d => d.elim0⟩

/-- `|x| < +∞` on the extended reals: `x` is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- An `all` of `|x| < +∞` over an array: every entry is a real number. -/
theorem all_real {s : Shape} {axes : List (Fin s.rank)} (x : FVec Ideal s .f32) (hb : S_.BroadcastsInDim s ![])
    (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ValueIdx.ix0 = 1#1) (i : s.Idx) : IsReal (x i) :=
  isReal_of_abs_lt_inf (x i) (Host.reduce_andi_all _ _ hr h0 _ h i)

/-- An `all` of `w ≥ 0` (signed) over an array of words. -/
theorem all_nonneg {s : Shape} {axes : List (Fin s.rank)} (ids : IVec s 32) (hb : S_.BroadcastsInDim s ![])
    (hr : s.ReducesTo axes S_) (h0 : 0 < S_.numel)
    (h : Host.reduce IntOp.andi (cmpi .sge ids (broadcastInDim s ![] hb (constantI S_ 32 0#32)))
        (constantI S_ 1 1#1) hr h0 ValueIdx.ix0 = 1#1) (i : s.Idx) : 0 ≤ (ids i).toInt := by
  have e := Host.reduce_andi_all _ _ hr h0 _ h i
  have e' : IntOp.cmpi .sge (ids i) (0#32) = 1#1 := e
  rw [IntOp.cmpi_sge] at e'
  exact e'

/-- An `all` of `w < 100000` (signed) over an array of words. -/
theorem all_lt {s : Shape} {axes : List (Fin s.rank)} (ids : IVec s 32) (hb : S_.BroadcastsInDim s ![])
    (hr : s.ReducesTo axes S_) (h0 : 0 < S_.numel)
    (h : Host.reduce IntOp.andi (cmpi .slt ids (broadcastInDim s ![] hb (constantI S_ 32 100000#32)))
        (constantI S_ 1 1#1) hr h0 ValueIdx.ix0 = 1#1) (i : s.Idx) : (ids i).toInt < 100000 := by
  have e := Host.reduce_andi_all _ _ hr h0 _ h i
  have e' : IntOp.cmpi .slt (ids i) (100000#32) = 1#1 := e
  rw [IntOp.cmpi_slt] at e'
  exact e'

theorem of_pre (x0 : FVec Ideal Cert.Pre_finite_inputs.S100000x256 .f32) (x1 x2 : IVec Cert.Pre_finite_inputs.S3200000 32)
    (x3 : FVec Ideal Cert.Pre_finite_inputs.S256x7 .f32) (x4 : FVec Ideal Cert.Pre_finite_inputs.S7 .f32)
    (x5 : FVec Ideal Cert.Pre_finite_inputs.S7x512 .f32) (x6 : FVec Ideal Cert.Pre_finite_inputs.S512 .f32)
    (h : Cert.Pre_finite_inputs.fn (F := Ideal) x0 x1 x2 x3 x4 x5 x6 = fun _ => 1#1) :
    (∀ i, IsReal (x0 i)) ∧ (∀ i, IsReal (x3 i)) ∧ (∀ i, IsReal (x4 i)) ∧ (∀ i, IsReal (x5 i)) ∧ (∀ i, IsReal (x6 i))
      ∧ Cert.Graph.InRange x1 ∧ Cert.Graph.InRange x2 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h3⟩, h4⟩, h5⟩, h6⟩, h1a⟩, h1b⟩, h2a⟩, h2b⟩ := e
  exact ⟨all_real x0 _ _ _ h0, all_real x3 _ _ _ h3, all_real x4 _ _ _ h4, all_real x5 _ _ _ h5, all_real x6 _ _ _ h6,
    fun e => ⟨all_nonneg x1 _ _ _ h1a _, all_lt x1 _ _ _ h1b _⟩,
    fun e => ⟨all_nonneg x2 _ _ _ h2a _, all_lt x2 _ _ _ h2b _⟩⟩

end Cert.PreFacts
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibScatterAddRows.lean ====
import Idealize.ShloMosaic.PureOps.Ideal
import Idealize.ShloMosaic.PureOps.Contract
import Idealize.ShloMosaic.Lib.ValueIdx

/-! # A float scatter-add of rows, read at an index

The accumulating float scatter `Host.scatterAdd d x idx upd` at the ideal values is, at every operand element, that
element plus the sum of the update elements that land on it. Worked out here, at any extents, for ROWS added into a
rank-2 operand: operand `[N, C]`, scatter indices `[K, 1]` (the index vector on axis 1), updates `[K, C]`; update row `e`
is added, whole, to the operand row named by the scatter index `idx[e, 0]` read as a SIGNED integer, and is dropped when
that integer is not a row of the operand (jax's `.at[rows].add(updates)`, `jax.ops.segment_sum`). So operand entry
`(i, j)` receives exactly the entries `(e, j)` of the update rows `e` whose scatter index is `i`
(`hostScatterAdd_rows_apply`). Stated at the literal dimension-number record `rowAddDims` and for ANY record with these
fields (the field equations are `rfl` at a printed record). -/

open scoped BigOperators

namespace Idealize.ShloMosaic.ScatterAddRows

open Idealize.ShloMosaic Idealize.ShloMosaic.ValueIdx

/-- The dimension numbers of a row scatter: operand `[N, C]`, scatter indices `[K, 1]`, updates `[K, C]`; the update's
    axis 1 is its window axis and goes to the operand's axis 1, the operand's axis 0 is the inserted (scattered) axis. -/
abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

/-- On the row axis the window of update `(e, b)` starts at the scatter index `idx[e, 0]`, read signed. -/
theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis the window starts at `0`: the scatter indices do not name that axis. -/
theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

/-- The operand's axes that are not inserted: the column axis alone. -/
theorem sKept_eq : (rowAddDims N K C wf).sKept = [(1 : Fin 2)] := rfl

/-- The row axis is inserted: no window coordinate on it. -/
theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

/-- On the column axis the window coordinate is the update's own column. -/
theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

/-- WHERE AN UPDATE LANDS: update `(e, b)` lands on operand entry `(i, j)` exactly when its scatter index is row `i`
    and its column is `j`. -/
theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

/-- THE ROW SCATTER-ADD AT THE LITERAL RECORD, READ AT `(i, j)`: the operand's entry plus the sum, over the update rows
    `e` whose scatter index is `i`, of the update's entry `(e, j)`. -/
theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

/-- THE ROW SCATTER-ADD AT ANY RECORD WITH THESE FIELDS, READ AT `(i, j)`: a record is its fields, so it is the literal
    one. -/
theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.LibScatterAddVec.lean ====
import Idealize.ShloMosaic.PureOps.Ideal
import Idealize.ShloMosaic.PureOps.Contract
import Idealize.ShloMosaic.Lib.ValueIdx

/-! # A float scatter-add of scalars into a flat array, read at an index

The accumulating float scatter `Host.scatterAdd d x idx upd` at the ideal values is, at every operand element, that
element plus the sum of the update elements that land on it. Worked out here, at any extents, for SCALARS added into a
rank-1 operand: operand `[N]`, scatter indices `[K, 1]` (the index vector on axis 1), updates `[K]`; update `e` is added
to the operand element named by the scatter index `idx[e, 0]` read as a SIGNED integer, and is dropped when that integer
is not a position of the operand (jax's `jax.ops.segment_sum` of a vector, `.at[ids].add(v)`). So operand element `i`
receives exactly the updates `e` whose scatter index is `i` (`hostScatterAdd_vec_apply`). Stated at the literal
dimension-number record `vecAddDims` and for ANY record with these fields. -/

open scoped BigOperators

namespace Idealize.ShloMosaic.ScatterAddVec

open Idealize.ShloMosaic Idealize.ShloMosaic.ValueIdx

/-- The dimension numbers of a scalar scatter into a vector: operand `[N]`, scatter indices `[K, 1]`, updates `[K]`; the
    update has no window axis, the operand's one axis is the inserted (scattered) axis. -/
abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

/-- The window of update `e` starts at the scatter index `idx[e, 0]`, read signed. -/
theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The one operand axis is inserted: no window coordinate on it. -/
theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

/-- WHERE AN UPDATE LANDS: update `e` lands on operand element `i` exactly when its scatter index reads `i`. -/
theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

/-- THE SCALAR SCATTER-ADD AT THE LITERAL RECORD, READ AT `i`: the operand's element plus the sum, over the updates `e`
    whose scatter index is `i`, of the update `e`. -/
theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

/-- THE SCALAR SCATTER-ADD AT ANY RECORD WITH THESE FIELDS, READ AT `i`: a record is its fields, so it is the literal
    one. -/
theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.RefValue.lean ====
import proofs.«401234_j27582279975440_3_alg».proof.Proof.RefRead
import proofs.«401234_j27582279975440_3_alg».proof.Proof.Common
import proofs.«401234_j27582279975440_3_alg».proof.Proof.LibGatherRow
import proofs.«401234_j27582279975440_3_alg».proof.Proof.LibScatterAddRows
import proofs.«401234_j27582279975440_3_alg».proof.Proof.LibScatterAddVec
import Idealize.ShloMosaic.Lib.ValueIdx
import Idealize.ShloMosaic.PureOps.Ideal.Laws

/-!
# The reference program's result is the closed formula

The reference program read one operation at a time, outermost first: the final broadcast and sum over the nodes, the
output layer, the scaling by the normalised in-degree, the row scatter-add over the edges, the row gather at the
source endpoints, the gate times the normalised out-degree, and the two degree counts. Each stage is stated at explicit
coordinates and the stages compose to `Cert.Graph.refOut`.
-/

open scoped BigOperators

noncomputable section

namespace Cert.ReferenceIdeal.RefValue

open Cert.ReferenceIdeal Cert.ReferenceIdeal.ReadP Idealize.ShloMosaic Idealize.ShloMosaic.ValueIdx

/-! ## The scatter-adds at any extents

Stated at variable extents, where nothing can be evaluated; the program's stages instantiate them. -/

section AnyExtents
variable {N K C : Nat}

/-- A scalar scatter-add of a constant into zeros, the scatter indices a column copy of `ids`: at position `v` it is
    zero plus the constant summed over the updates whose index word reads `v`. -/
theorem scatterVec_const (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : FVec Ideal ⟨1, ![N]⟩ .f32) (idx : IVec ⟨2, ![K, 1]⟩ 32) (upd : FVec Ideal ⟨1, ![K]⟩ .f32)
    (ids : IVec ⟨1, ![K]⟩ 32) (c : EReal) (v : Fin N)
    (hx : x (ix1 v) = 0) (hidx : ∀ e : Fin K, idx (ix2 e (0 : Fin 1)) = ids (ix1 e))
    (hupd : ∀ e : Fin K, upd (ix1 e) = c) :
    Host.scatterAdd (F := Ideal) (φ := .f32) d x idx upd (ix1 v)
      = 0 + ∑ e ∈ Finset.univ.filter (fun e : Fin K => (ids (ix1 e)).toInt = (v.val : Int)), c := by
  show Ideal.hostScatterAdd d x idx upd (ix1 v) = _
  rw [ScatterAddVec.hostScatterAdd_vec_apply d hu hi hs hv, hx]
  exact congrArg (0 + ·) (Finset.sum_congr (Finset.filter_congr fun e _ => by rw [hidx]) fun e _ => hupd e)

/-- A row scatter-add into zeros, the scatter indices a column copy of `ids`: at `(v, k)` it is zero plus the sum, over
    the update rows whose index word reads `v`, of the row's entry `k`. -/
theorem scatterRows_zero (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : FVec Ideal ⟨2, ![N, C]⟩ .f32) (idx : IVec ⟨2, ![K, 1]⟩ 32) (upd : FVec Ideal ⟨2, ![K, C]⟩ .f32)
    (ids : IVec ⟨1, ![K]⟩ 32) (g : Fin K → EReal) (v : Fin N) (k : Fin C)
    (hx : x (ix2 v k) = 0) (hidx : ∀ e : Fin K, idx (ix2 e (0 : Fin 1)) = ids (ix1 e))
    (hupd : ∀ e : Fin K, upd (ix2 e k) = g e) :
    Host.scatterAdd (F := Ideal) (φ := .f32) d x idx upd (ix2 v k)
      = 0 + ∑ e ∈ Finset.univ.filter (fun e : Fin K => (ids (ix1 e)).toInt = (v.val : Int)), g e := by
  show Ideal.hostScatterAdd d x idx upd (ix2 v k) = _
  rw [ScatterAddRows.hostScatterAdd_rows_apply d hu hi hs hv, hx]
  exact congrArg (0 + ·) (Finset.sum_congr (Finset.filter_congr fun e _ => by rw [hidx]) fun e _ => hupd e)

/-- Zero plus a sum, termwise. -/
theorem zero_add_sum_congr (f g : Fin N → EReal) (h : ∀ v, f v = g v) : (0 : EReal) + ∑ v, f v = 0 + ∑ v, g v :=
  congrArg (0 + ·) (Finset.sum_congr rfl fun v _ => h v)

end AnyExtents

/-- A literal zero of the program is the extended real zero. -/
theorem zero_lit : (FloatOps.ofBits (F := Ideal) .f32 0x00000000#32 : EReal) = 0 := Ideal.ofBits_zero_f32

/-- The literal one of the program is the formula's. -/
theorem one_lit : (FloatOps.ofBits (F := Ideal) .f32 0x3F800000#32 : EReal) = Cert.Graph.one := rfl

/-- The out-degree count: the scalar scatter-add of ones at the source endpoints, from zero. -/
theorem deg_src (x1 : (⟨S3200000, .i32⟩ : BufTy).Contents (Elt Ideal)) (v : Fin 100000) :
    val_main_v3 (F := Ideal) x1 (ix1 v) = Cert.Graph.deg x1 v := by
  unfold val_main_v3 Cert.Graph.deg
  have hu : (scatter_S100000_S3200000x1_S3200000_n_0_0_1).updateWindowDims = [] := rfl
  have hi : (scatter_S100000_S3200000x1_S3200000_n_0_0_1).insertedWindowDims = [0] := rfl
  have hs : (scatter_S100000_S3200000x1_S3200000_n_0_0_1).scatterDimsToOperandDims = [0] := rfl
  have hv : (scatter_S100000_S3200000x1_S3200000_n_0_0_1).indexVectorDim = 1 := rfl
  have hx : val_main_v1 (F := Ideal) (ix1 v) = 0 := by rw [val_main_v1_apply, val_main_cst_0_apply]; exact zero_lit
  have hidx : ∀ e : Fin 3200000, val_main_v2 (F := Ideal) x1 (ix2 e (0 : Fin 1)) = x1 (ix1 e) := fun e => by
    rw [val_main_v2_apply]
    exact congrArg x1 (funext fun a => Fin.ext (by match a with | ⟨0, _⟩ => rfl))
  have hupd : ∀ e : Fin 3200000, val_main_v0 (F := Ideal) (ix1 e) = Cert.Graph.one := fun e => by
    rw [val_main_v0_apply, val_main_cst_apply]; exact one_lit
  with_reducible exact scatterVec_const scatter_S100000_S3200000x1_S3200000_n_0_0_1 hu hi hs hv _ _ _ x1 Cert.Graph.one v hx hidx hupd

/-- The in-degree count: the same at the destination endpoints. -/
theorem deg_dst (x2 : (⟨S3200000, .i32⟩ : BufTy).Contents (Elt Ideal)) (v : Fin 100000) :
    val_main_v6 (F := Ideal) x2 (ix1 v) = Cert.Graph.deg x2 v := by
  unfold val_main_v6 Cert.Graph.deg
  have hu : (scatter_S100000_S3200000x1_S3200000_n_0_0_1).updateWindowDims = [] := rfl
  have hi : (scatter_S100000_S3200000x1_S3200000_n_0_0_1).insertedWindowDims = [0] := rfl
  have hs : (scatter_S100000_S3200000x1_S3200000_n_0_0_1).scatterDimsToOperandDims = [0] := rfl
  have hv : (scatter_S100000_S3200000x1_S3200000_n_0_0_1).indexVectorDim = 1 := rfl
  have hx : val_main_v4 (F := Ideal) (ix1 v) = 0 := by rw [val_main_v4_apply, val_main_cst_1_apply]; exact zero_lit
  have hidx : ∀ e : Fin 3200000, val_main_v5 (F := Ideal) x2 (ix2 e (0 : Fin 1)) = x2 (ix1 e) := fun e => by
    rw [val_main_v5_apply]
    exact congrArg x2 (funext fun a => Fin.ext (by match a with | ⟨0, _⟩ => rfl))
  have hupd : ∀ e : Fin 3200000, val_main_v0 (F := Ideal) (ix1 e) = Cert.Graph.one := fun e => by
    rw [val_main_v0_apply, val_main_cst_apply]; exact one_lit
  with_reducible exact scatterVec_const scatter_S100000_S3200000x1_S3200000_n_0_0_1 hu hi hs hv _ _ _ x2 Cert.Graph.one v hx hidx hupd

/-- The program's normalisation of a count `c`: the select on `c > 0` of `c` to the power minus one half, else zero. -/
theorem norm_lit (c : EReal) :
    Scalar.select (FloatOps.cmpf (F := Ideal) (φ := .f32) .ogt c (FloatOps.ofBits (F := Ideal) .f32 0x00000000#32))
        (FloatOps.hostPowf (F := Ideal) (φ := .f32) c (FloatOps.ofBits (F := Ideal) .f32 0xBF000000#32))
        (FloatOps.ofBits (F := Ideal) .f32 0x00000000#32)
      = Cert.Graph.norm c := by
  rw [zero_lit]; rfl

/-- The normalised out-degree. -/
theorem norm_src (x1 : (⟨S3200000, .i32⟩ : BufTy).Contents (Elt Ideal)) (v : Fin 100000) :
    val_main_v11 (F := Ideal) x1 (ix1 v) = Cert.Graph.norm (Cert.Graph.deg x1 v) := by
  rw [val_main_v11_apply, val_main_v8_apply, val_main_v10_apply, val_main_v7_apply, val_main_cst_2_apply,
    val_main_v9_apply, val_main_cst_3_apply, val_main_call0_v1_apply, val_main_call0_v0_apply, val_main_cst_4_apply,
    deg_src]
  exact norm_lit _

/-- The normalised in-degree. -/
theorem norm_dst (x2 : (⟨S3200000, .i32⟩ : BufTy).Contents (Elt Ideal)) (v : Fin 100000) :
    val_main_v16 (F := Ideal) x2 (ix1 v) = Cert.Graph.norm (Cert.Graph.deg x2 v) := by
  rw [val_main_v16_apply, val_main_v13_apply, val_main_v15_apply, val_main_v12_apply, val_main_cst_5_apply,
    val_main_v14_apply, val_main_cst_6_apply, val_main_call1_v1_apply, val_main_call1_v0_apply, val_main_cst_7_apply,
    deg_dst]
  exact norm_lit _

/-- The gating layer: the logistic function of the feature row times the gating weights plus the gating bias. -/
theorem gate_eq (x0 : (⟨S100000x256, .f32⟩ : BufTy).Contents (Elt Ideal)) (x3 : (⟨S256x7, .f32⟩ : BufTy).Contents (Elt Ideal))
    (x4 : (⟨S7, .f32⟩ : BufTy).Contents (Elt Ideal)) (n : Fin 100000) (k : Fin 7) :
    val_main_v26 (F := Ideal) x0 x3 x4 (ix2 n k) = Cert.Graph.gate x0 x3 x4 n k := by
  rw [val_main_v26_apply, val_main_v25_apply, val_main_cst_9_apply, val_main_v24_apply, val_main_v23_apply,
    val_main_cst_8_apply, val_main_v22_apply, val_main_v21_apply, val_main_v20_apply, val_main_v17_apply,
    val_main_v19_apply, val_main_v18_apply]
  simp only [Ideal.hostDivf_def, Ideal.hostUnary_exp_def, Ideal.hostNegf_def, Ideal.negf_def, Ideal.addf_def,
    Ideal.ofBits_def]
  unfold Cert.Graph.gate Cert.Graph.one
  have el : ∀ c : Fin 256, lidx_main_v17 (ix2 n k) c = ix2 n c := fun c =>
    funext fun a => Fin.ext (by match a with | ⟨0, _⟩ => rfl | ⟨1, _⟩ => rfl)
  have er : ∀ c : Fin 256, ridx_main_v17 (ix2 n k) c = ix2 c k := fun c =>
    funext fun a => Fin.ext (by match a with | ⟨0, _⟩ => rfl | ⟨1, _⟩ => rfl)
  have eb : idx_main_v18 (idx_main_v19 (ix2 n k)) = ix1 k :=
    funext fun a => Fin.ext (by match a with | ⟨0, _⟩ => rfl)
  simp only [el, er, eb]

/-- The gate times the normalised out-degree, at node `n`, channel `k`. -/
theorem hrow (x0 : (⟨S100000x256, .f32⟩ : BufTy).Contents (Elt Ideal)) (x1 : (⟨S3200000, .i32⟩ : BufTy).Contents (Elt Ideal))
    (x3 : (⟨S256x7, .f32⟩ : BufTy).Contents (Elt Ideal)) (x4 : (⟨S7, .f32⟩ : BufTy).Contents (Elt Ideal))
    (n : Fin 100000) (k : Fin 7) :
    val_main_v29 (F := Ideal) x0 x1 x3 x4 (ix2 n k)
      = Cert.Graph.gate x0 x3 x4 n k * Cert.Graph.norm (Cert.Graph.deg x1 n) := by
  have ei : idx_main_v27 (idx_main_v28 (ix2 n k)) = ix1 n := funext fun a => Fin.ext (by match a with | ⟨0, _⟩ => rfl)
  rw [val_main_v29_apply, gate_eq, val_main_v28_apply, val_main_v27_apply, ei, norm_src]
  exact Ideal.mulf_def _ _

/-- The row index the gather reads: the source endpoint word itself, since it is not negative. -/
theorem src_index (x1 : (⟨S3200000, .i32⟩ : BufTy).Contents (Elt Ideal)) (hs : Cert.Graph.InRange x1) (e : Fin 3200000) :
    val_main_v35 (F := Ideal) x1 (ix2 e (0 : Fin 1)) = x1 (ix1 e) := by
  have ei : idx_main_v35 (ix2 e (0 : Fin 1)) = ix1 e := funext fun a => Fin.ext (by match a with | ⟨0, _⟩ => rfl)
  rw [val_main_v35_apply, ei, val_main_v34_apply, val_main_v31_apply, val_main_v30_apply, val_main_c_apply]
  have hlt : (x1 (ix1 e)).slt 0#32 = false := by
    simp only [BitVec.slt, BitVec.toInt_zero, decide_eq_false_iff_not, Int.not_lt]
    exact (hs e).1
  have hc : IntOp.cmpi .slt (x1 (ix1 e)) 0#32 = 0#1 := by
    show BitVec.ofBool ((x1 (ix1 e)).slt 0#32) = 0#1
    rw [hlt]; rfl
  rw [hc, select_zero]

/-- The gathered row of edge `e`: the multiplied gate row of its source node. -/
theorem gathered (x0 : (⟨S100000x256, .f32⟩ : BufTy).Contents (Elt Ideal)) (x1 : (⟨S3200000, .i32⟩ : BufTy).Contents (Elt Ideal))
    (x3 : (⟨S256x7, .f32⟩ : BufTy).Contents (Elt Ideal)) (x4 : (⟨S7, .f32⟩ : BufTy).Contents (Elt Ideal))
    (hs : Cert.Graph.InRange x1) (e : Fin 3200000) (k : Fin 7) :
    val_main_v36 (F := Ideal) x0 x1 x3 x4 (ix2 e k)
      = Cert.Graph.gate x0 x3 x4 (Cert.Graph.node (x1 (ix1 e))) k
          * Cert.Graph.norm (Cert.Graph.deg x1 (Cert.Graph.node (x1 (ix1 e)))) := by
  unfold val_main_v36
  refine (GatherRow.gather_rowTake_apply (by decide : 0 < 100000)
    gather_S100000x7_S3200000x1_S3200000x7_1_0_n_n_0_1_17 rfl rfl rfl rfl rfl rfl rfl
    (val_main_v29 (F := Ideal) x0 x1 x3 x4) (val_main_v35 (F := Ideal) x1) e k).trans ?_
  refine (congrArg (fun r : Fin 100000 => val_main_v29 (F := Ideal) x0 x1 x3 x4 (ix2 r k)) (Fin.ext ?_)).trans
    (hrow x0 x1 x3 x4 (Cert.Graph.node (x1 (ix1 e))) k)
  show min (val_main_v35 (F := Ideal) x1 (ix2 e (0 : Fin 1))).toInt.toNat (100000 - 1)
    = min (x1 (ix1 e)).toInt.toNat 99999
  rw [src_index x1 hs e]

/-- The aggregated row of node `v`: zero plus the sum, over the edges into `v`, of the gathered rows. -/
theorem aggregated (x0 : (⟨S100000x256, .f32⟩ : BufTy).Contents (Elt Ideal)) (x1 x2 : (⟨S3200000, .i32⟩ : BufTy).Contents (Elt Ideal))
    (x3 : (⟨S256x7, .f32⟩ : BufTy).Contents (Elt Ideal)) (x4 : (⟨S7, .f32⟩ : BufTy).Contents (Elt Ideal))
    (hs : Cert.Graph.InRange x1) (v : Fin 100000) (k : Fin 7) :
    val_main_v39 (F := Ideal) x0 x1 x2 x3 x4 (ix2 v k)
      = 0 + ∑ e ∈ Finset.univ.filter (fun e : Fin 3200000 => (x2 (ix1 e)).toInt = (v.val : Int)),
          Cert.Graph.gate x0 x3 x4 (Cert.Graph.node (x1 (ix1 e))) k
            * Cert.Graph.norm (Cert.Graph.deg x1 (Cert.Graph.node (x1 (ix1 e)))) := by
  unfold val_main_v39
  have hu : (scatter_S100000x7_S3200000x1_S3200000x7_1_0_0_1).updateWindowDims = [1] := rfl
  have hi : (scatter_S100000x7_S3200000x1_S3200000x7_1_0_0_1).insertedWindowDims = [0] := rfl
  have hsd : (scatter_S100000x7_S3200000x1_S3200000x7_1_0_0_1).scatterDimsToOperandDims = [0] := rfl
  have hv : (scatter_S100000x7_S3200000x1_S3200000x7_1_0_0_1).indexVectorDim = 1 := rfl
  have hx : val_main_v37 (F := Ideal) (ix2 v k) = 0 := by rw [val_main_v37_apply, val_main_cst_11_apply]; exact zero_lit
  have hidx : ∀ e : Fin 3200000, val_main_v38 (F := Ideal) x2 (ix2 e (0 : Fin 1)) = x2 (ix1 e) := fun e => by
    rw [val_main_v38_apply]
    exact congrArg x2 (funext fun a => Fin.ext (by match a with | ⟨0, _⟩ => rfl))
  have hupd : ∀ e : Fin 3200000, val_main_v36 (F := Ideal) x0 x1 x3 x4 (ix2 e k)
      = Cert.Graph.gate x0 x3 x4 (Cert.Graph.node (x1 (ix1 e))) k
          * Cert.Graph.norm (Cert.Graph.deg x1 (Cert.Graph.node (x1 (ix1 e)))) := fun e => gathered x0 x1 x3 x4 hs e k
  with_reducible exact scatterRows_zero scatter_S100000x7_S3200000x1_S3200000x7_1_0_0_1 hu hi hsd hv _ _ _ x2 _ v k hx hidx hupd

/-- The aggregated row scaled by the normalised in-degree. -/
theorem scaled (x0 : (⟨S100000x256, .f32⟩ : BufTy).Contents (Elt Ideal)) (x1 x2 : (⟨S3200000, .i32⟩ : BufTy).Contents (Elt Ideal))
    (x3 : (⟨S256x7, .f32⟩ : BufTy).Contents (Elt Ideal)) (x4 : (⟨S7, .f32⟩ : BufTy).Contents (Elt Ideal))
    (hs : Cert.Graph.InRange x1) (v : Fin 100000) (k : Fin 7) :
    val_main_v42 (F := Ideal) x0 x1 x2 x3 x4 (ix2 v k)
      = (0 + ∑ e ∈ Finset.univ.filter (fun e : Fin 3200000 => (x2 (ix1 e)).toInt = (v.val : Int)),
          Cert.Graph.gate x0 x3 x4 (Cert.Graph.node (x1 (ix1 e))) k
            * Cert.Graph.norm (Cert.Graph.deg x1 (Cert.Graph.node (x1 (ix1 e)))))
        * Cert.Graph.norm (Cert.Graph.deg x2 v) := by
  have ei : idx_main_v40 (idx_main_v41 (ix2 v k)) = ix1 v := funext fun a => Fin.ext (by match a with | ⟨0, _⟩ => rfl)
  rw [val_main_v42_apply, aggregated x0 x1 x2 x3 x4 hs, val_main_v41_apply, val_main_v40_apply, ei, norm_dst]
  exact Ideal.mulf_def _ _

/-- The output layer at node `v`, output channel `j`. -/
theorem node_out (x0 : (⟨S100000x256, .f32⟩ : BufTy).Contents (Elt Ideal)) (x1 x2 : (⟨S3200000, .i32⟩ : BufTy).Contents (Elt Ideal))
    (x3 : (⟨S256x7, .f32⟩ : BufTy).Contents (Elt Ideal)) (x4 : (⟨S7, .f32⟩ : BufTy).Contents (Elt Ideal))
    (x5 : (⟨S7x512, .f32⟩ : BufTy).Contents (Elt Ideal)) (x6 : (⟨S512, .f32⟩ : BufTy).Contents (Elt Ideal))
    (hs : Cert.Graph.InRange x1) (v : Fin 100000) (j : Fin 512) :
    val_main_v46 (F := Ideal) x0 x1 x2 x3 x4 x5 x6 (ix2 v j)
      = (∑ k : Fin 7,
          ((0 + ∑ e ∈ Finset.univ.filter (fun e : Fin 3200000 => (x2 (ix1 e)).toInt = (v.val : Int)),
              Cert.Graph.gate x0 x3 x4 (Cert.Graph.node (x1 (ix1 e))) k
                * Cert.Graph.norm (Cert.Graph.deg x1 (Cert.Graph.node (x1 (ix1 e)))))
            * Cert.Graph.norm (Cert.Graph.deg x2 v)) * x5 (ix2 k j))
        + x6 (ix1 j) := by
  have el : ∀ k : Fin 7, lidx_main_v43 (ix2 v j) k = ix2 v k := fun k =>
    funext fun a => Fin.ext (by match a with | ⟨0, _⟩ => rfl | ⟨1, _⟩ => rfl)
  have er : ∀ k : Fin 7, ridx_main_v43 (ix2 v j) k = ix2 k j := fun k =>
    funext fun a => Fin.ext (by match a with | ⟨0, _⟩ => rfl | ⟨1, _⟩ => rfl)
  have eb : idx_main_v44 (idx_main_v45 (ix2 v j)) = ix1 j := funext fun a => Fin.ext (by match a with | ⟨0, _⟩ => rfl)
  rw [val_main_v46_apply, val_main_v43_apply, val_main_v45_apply, val_main_v44_apply, eb]
  refine (Ideal.addf_def _ _).trans (congrArg (· + x6 (ix1 j)) (Finset.sum_congr rfl fun k _ => ?_))
  rw [el k, er k, scaled x0 x1 x2 x3 x4 hs v k]

/-- THE REFERENCE'S RESULT at an index is the closed formula at the index's channel. -/
theorem result_eq (x0 : (⟨S100000x256, .f32⟩ : BufTy).Contents (Elt Ideal)) (x1 x2 : (⟨S3200000, .i32⟩ : BufTy).Contents (Elt Ideal))
    (x3 : (⟨S256x7, .f32⟩ : BufTy).Contents (Elt Ideal)) (x4 : (⟨S7, .f32⟩ : BufTy).Contents (Elt Ideal))
    (x5 : (⟨S7x512, .f32⟩ : BufTy).Contents (Elt Ideal)) (x6 : (⟨S512, .f32⟩ : BufTy).Contents (Elt Ideal))
    (hs : Cert.Graph.InRange x1) (i : S1x512.Idx) :
    val_main_v48 (F := Ideal) x0 x1 x2 x3 x4 x5 x6 i = Cert.Graph.refOut x0 x1 x2 x3 x4 x5 x6 (i 1) := by
  obtain ⟨u, j, rfl⟩ : ∃ (u : Fin 1) (j : Fin 512), i = ix2 u j := ⟨i 0, i 1, eq_ix2 i⟩
  show val_main_v48 (F := Ideal) x0 x1 x2 x3 x4 x5 x6 (ix2 u j) = Cert.Graph.refOut x0 x1 x2 x3 x4 x5 x6 j
  have e48 : idx_main_v48 (ix2 u j) = ix1 j := funext fun a => Fin.ext (by match a with | ⟨0, _⟩ => rfl)
  have e47 : ∀ v : Fin 100000, idx_main_v47 (ix1 j) v = ix2 v j := fun v =>
    funext fun a => Fin.ext (by match a with | ⟨0, _⟩ => rfl | ⟨1, _⟩ => rfl)
  rw [val_main_v48_apply, e48, val_main_v47_apply, val_main_cst_12_apply, zero_lit]
  unfold Cert.Graph.refOut
  with_reducible exact zero_add_sum_congr _ _ fun v => by rw [e47 v]; exact node_out x0 x1 x2 x3 x4 x5 x6 hs v j

end Cert.ReferenceIdeal.RefValue

end
-- ==== Proof.KPrefixA.lean ====
import proofs.«401234_j27582279975440_3_alg».proof.Proof.Gen.KernelIdeal.Frame
import proofs.«401234_j27582279975440_3_alg».proof.Proof.Common
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

/-!
# The arrays the region stages, as the host operations before it leave them: the stages, the features, the bias

The host operations before the region come in ten stretches. `W1 … W10` are the buffers' contents after each stretch in
turn, so that each stretch is read by itself over the contents the one before left; `V0_eq` says the contents the
region finds are `W10`. Read here: the feature rows padded with 2400 zero rows (`V_xpad`) and the bias as one row
(`V_bgrow`). The padding value is the integer literal `0` converted to a float: the real `0`.
-/

open scoped BigOperators

noncomputable section

namespace Cert.KernelIdeal.KPrefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The contents after each stretch -/

/-- The buffers after the first stretch of host operations (the in-degrees, their comparison with zero and their power). -/
def W1 (c : Dev nD) : Valuation τ sig (Elt Ideal) := StableHlo.after hostOps0 (fun b => m (c, b))
/-- … after the first select (the normalised in-degrees). -/
def W2 (c : Dev nD) : Valuation τ sig (Elt Ideal) := StableHlo.after hostOps0_1 (W1 m c)
/-- … after the take (the normalised in-degree of every edge's head). -/
def W3 (c : Dev nD) : Valuation τ sig (Elt Ideal) := StableHlo.after hostOps0_2 (W2 m c)
/-- … after the row scatter and its two columns. -/
def W4 (c : Dev nD) : Valuation τ sig (Elt Ideal) := StableHlo.after hostOps0_3 (W3 m c)
/-- … after the second select (the normalised out-degrees). -/
def W5 (c : Dev nD) : Valuation τ sig (Elt Ideal) := StableHlo.after hostOps0_4 (W4 m c)
/-- … after the product (the per-node weights) and its cast to one row. -/
def W6 (c : Dev nD) : Valuation τ sig (Elt Ideal) := StableHlo.after hostOps0_5 (W5 m c)
/-- … after the feature rows are padded. -/
def W7 (c : Dev nD) : Valuation τ sig (Elt Ideal) := StableHlo.after hostOps0_6 (W6 m c)
/-- … after the second integer zero literal. -/
def W8 (c : Dev nD) : Valuation τ sig (Elt Ideal) := StableHlo.after hostOps0_7 (W7 m c)
/-- … after the weights' row is padded. -/
def W9 (c : Dev nD) : Valuation τ sig (Elt Ideal) := StableHlo.after hostOps0_8 (W8 m c)
/-- … after the bias is cast to one row: what the region finds. -/
def W10 (c : Dev nD) : Valuation τ sig (Elt Ideal) := StableHlo.after hostOps0_9 (W9 m c)

/-- The contents the region finds are those after the tenth stretch. -/
theorem V0_eq (c : Dev nD) : V0 m c = W10 m c := by
  unfold W10 W9 W8 W7 W6 W5 W4 W3 W2 W1
  dsimp only [V0]
  simp only [List.flatten_cons, List.flatten_nil, List.append_nil, StableHlo.after_append]

/-! ## The bias: no stretch before the last writes it, the last casts it to one row -/

theorem W1_arg4 (c : Dev nD) : W1 m c (Proc.devRef .tc main_arg4) = m (c, Proc.devRef .tc main_arg4) := by
  unfold W1; after_results
theorem W2_arg4 (c : Dev nD) : W2 m c (Proc.devRef .tc main_arg4) = m (c, Proc.devRef .tc main_arg4) := by
  unfold W2; after_results; exact W1_arg4 m c
theorem W3_arg4 (c : Dev nD) : W3 m c (Proc.devRef .tc main_arg4) = m (c, Proc.devRef .tc main_arg4) := by
  unfold W3; after_results; exact W2_arg4 m c
theorem W4_arg4 (c : Dev nD) : W4 m c (Proc.devRef .tc main_arg4) = m (c, Proc.devRef .tc main_arg4) := by
  unfold W4; after_results; exact W3_arg4 m c
theorem W5_arg4 (c : Dev nD) : W5 m c (Proc.devRef .tc main_arg4) = m (c, Proc.devRef .tc main_arg4) := by
  unfold W5; after_results; exact W4_arg4 m c
theorem W6_arg4 (c : Dev nD) : W6 m c (Proc.devRef .tc main_arg4) = m (c, Proc.devRef .tc main_arg4) := by
  unfold W6; after_results; exact W5_arg4 m c
theorem W7_arg4 (c : Dev nD) : W7 m c (Proc.devRef .tc main_arg4) = m (c, Proc.devRef .tc main_arg4) := by
  unfold W7; after_results; exact W6_arg4 m c
theorem W8_arg4 (c : Dev nD) : W8 m c (Proc.devRef .tc main_arg4) = m (c, Proc.devRef .tc main_arg4) := by
  unfold W8; after_results; exact W7_arg4 m c
theorem W9_arg4 (c : Dev nD) : W9 m c (Proc.devRef .tc main_arg4) = m (c, Proc.devRef .tc main_arg4) := by
  unfold W9; after_results; exact W8_arg4 m c

/-- The bias as a `[1, 7]` row reads the bias at the column. -/
theorem W10_v29 (c : Dev nD) : (W10 m c (Proc.devRef .tc main_v29) : S1x7.Idx → EReal) =
    fun i => (m ((c.tc : Thread nD τ).loc main_arg4) : S7.Idx → EReal) (ix1 (i 1)) := by
  unfold W10
  after_results
  rw [W9_arg4]
  show (fun i : S1x7.Idx => shapeCast S1x7 (m (c, Proc.devRef .tc main_arg4) : S7.Idx → EReal) shapeCasts_S7_S1x7 i) = _
  funext i
  rw [eq_ix2 i]
  exact shapeCast_a_1a_apply _ _ _ _

/-- THE BIAS ROW the region stages. -/
theorem V_bgrow (c : Dev nD) : (V m c main_v29 : S1x7.Idx → EReal)
      = fun i => (m ((c.tc : Thread nD τ).loc main_arg4) : S7.Idx → EReal) (ix1 (i 1)) := by
  show V0 m c (Proc.devRef .tc main_v29) = _
  rw [V0_eq]
  exact W10_v29 m c

/-! ## The features: no stretch before the seventh writes them, the seventh pads them -/

theorem W1_arg0 (c : Dev nD) : W1 m c (Proc.devRef .tc main_arg0) = m (c, Proc.devRef .tc main_arg0) := by
  unfold W1; after_results
theorem W2_arg0 (c : Dev nD) : W2 m c (Proc.devRef .tc main_arg0) = m (c, Proc.devRef .tc main_arg0) := by
  unfold W2; after_results; exact W1_arg0 m c
theorem W3_arg0 (c : Dev nD) : W3 m c (Proc.devRef .tc main_arg0) = m (c, Proc.devRef .tc main_arg0) := by
  unfold W3; after_results; exact W2_arg0 m c
theorem W4_arg0 (c : Dev nD) : W4 m c (Proc.devRef .tc main_arg0) = m (c, Proc.devRef .tc main_arg0) := by
  unfold W4; after_results; exact W3_arg0 m c
theorem W5_arg0 (c : Dev nD) : W5 m c (Proc.devRef .tc main_arg0) = m (c, Proc.devRef .tc main_arg0) := by
  unfold W5; after_results; exact W4_arg0 m c
theorem W6_arg0 (c : Dev nD) : W6 m c (Proc.devRef .tc main_arg0) = m (c, Proc.devRef .tc main_arg0) := by
  unfold W6; after_results; exact W5_arg0 m c

/-- The integer zero literal the padding value is converted from. -/
theorem W6_c (c : Dev nD) : (W6 m c (Proc.devRef .tc main_c) : S_.Idx → BitVec 32) = constantI S_ 32 0#32 := by
  unfold W6; after_results

/-- The padded features: a row below 100000 is the features' row, a row from 100000 on is the padding value, the real
    `0`. -/
theorem W7_v27 (c : Dev nD) : (W7 m c (Proc.devRef .tc main_v27) : S102400x256.Idx → EReal) =
    fun i => Cert.Graph.xPad (m ((c.tc : Thread nD τ).loc main_arg0)) (i 0) (i 1) := by
  unfold W7
  after_results
  rw [W6_arg0, W6_c]
  show (pad S102400x256 ![0, 0] ![2400, 0] ![0, 0] (m (c, Proc.devRef .tc main_arg0) : S100000x256.Idx → EReal)
      (sitofp (F := Ideal) .f32 (constantI S_ 32 0#32)) pads_S100000x256_S102400x256_024000_000 h_S_ : S102400x256.Idx → EReal) = _
  funext i
  unfold Cert.Graph.xPad
  by_cases h : (i 0).val < 100000
  · rw [dif_pos h]
    exact pad_apply_of_inside _ _ _ _ _ _ _ i (ix2 ⟨(i 0).val, h⟩ (i 1)) (fun a => match a with
      | ⟨0, _⟩ => by show (i 0).val = 0 + (i 0).val * (0 + 1); omega
      | ⟨1, _⟩ => by show (i 1).val = 0 + (i 1).val * (0 + 1); omega)
  · rw [dif_neg h]
    refine (pad_apply_of_not_inside _ _ _ _ _ _ _ i (0 : Fin 2) ?_).trans ?_
    · show ¬ (0 ≤ (i 0).val ∧ ((i 0).val - 0) % (0 + 1) = 0 ∧ ((i 0).val - 0) / (0 + 1) < 100000)
      omega
    · show ((((0#32 : BitVec 32).toInt : ℝ)) : EReal) = 0
      simp

theorem W8_v27 (c : Dev nD) : W8 m c (Proc.devRef .tc main_v27) = W7 m c (Proc.devRef .tc main_v27) := by
  unfold W8; after_results
theorem W9_v27 (c : Dev nD) : W9 m c (Proc.devRef .tc main_v27) = W7 m c (Proc.devRef .tc main_v27) := by
  unfold W9; after_results; exact W8_v27 m c
theorem W10_v27 (c : Dev nD) : W10 m c (Proc.devRef .tc main_v27) = W7 m c (Proc.devRef .tc main_v27) := by
  unfold W10; after_results; exact W9_v27 m c

/-- THE PADDED FEATURE ROWS the region stages. -/
theorem V_xpad (c : Dev nD) : (V m c main_v27 : S102400x256.Idx → EReal)
      = fun i => Cert.Graph.xPad (m ((c.tc : Thread nD τ).loc main_arg0)) (i 0) (i 1) := by
  show V0 m c (Proc.devRef .tc main_v27) = _
  rw [V0_eq, W10_v27]
  exact W7_v27 m c

end Cert.KernelIdeal.KPrefix

end
-- ==== Proof.LibGather.lean ====
import Idealize.ShloMosaic.PureOps.ShapeOps
import Idealize.ShloMosaic.Lib.ValueIdx

/-! # A gather that takes entries of a flat array, read at an index

`Host.gather d x idx j = x (d.operandIdx j idx)`: the operand index has, on the gathered axis, the start index read as a SIGNED
integer and CLAMPED into the axis. Worked out here, at any extents, for entries of a flat array: operand `[N]`, start indices
`[K, 1]`, result `[K]` (`flatTakeDims`, `gather_flatTake_apply`), with the corollary for a start index already inside the array
(`gather_flatTake_apply_of_lt`): the clamp does nothing and the entry read is the one the index names. -/

namespace Idealize.ShloMosaic.GatherTake

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- Operand `[N]`, start indices `[K, 1]`, result `[K]`: the one axis is gathered (collapsed, one entry). -/
abbrev flatTakeDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE GATHER READ AT `k`: the operand at the start index `idx[k, 0]`, read signed and clamped into `[0, N − 1]`. -/
theorem gather_flatTake_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (flatTakeDims N K wf) x idx (ix1 k)
      = x (ix1 ⟨min (idx (ix2 k (0 : Fin 1))).toInt.toNat (N - 1), by omega⟩) := by
  unfold Host.gather
  congr 1
  funext c
  obtain rfl : c = 0 := Subsingleton.elim _ _
  refine Fin.ext ?_
  show (flatTakeDims N K wf).start (ix1 k) idx 0 + (flatTakeDims N K wf).batchCoord (ix1 k) 0
    + (flatTakeDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTakeDims N K wf).startIndexMap from List.mem_singleton.mpr rfl)]
  have hsi : (flatTakeDims N K wf).siIdx (ix1 k) ⟨List.idxOf (0 : Fin 1) (flatTakeDims N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The same for a start index inside the array: the entry it names. -/
theorem gather_flatTake_apply_of_lt {N K w : Nat}
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K)
    (h0 : 0 ≤ (idx (ix2 k (0 : Fin 1))).toInt) (hlt : (idx (ix2 k (0 : Fin 1))).toInt < (N : Int)) :
    Host.gather (flatTakeDims N K wf) x idx (ix1 k)
      = x (ix1 ⟨(idx (ix2 k (0 : Fin 1))).toInt.toNat, by omega⟩) := by
  rw [gather_flatTake_apply (by omega) wf x idx k]
  congr 2
  exact Fin.ext (clamp_of_lt _ h0 hlt)

end

end Idealize.ShloMosaic.GatherTake
-- ==== Proof.KPrefixB.lean ====
import proofs.«401234_j27582279975440_3_alg».proof.Proof.KPrefixA
import proofs.«401234_j27582279975440_3_alg».proof.Proof.LibGather
import proofs.«401234_j27582279975440_3_alg».proof.Proof.LibScatterAddRows
import proofs.«401234_j27582279975440_3_alg».proof.Proof.LibScatterAddVec
import Idealize.ShloMosaic.Lib.StableHlo.Predicate
import Idealize.ShloMosaic.Lib.Affine
import Idealize.ShloMosaic.PureOps.Reduce

/-!
# The first three stretches of host operations: in-degrees, their normalisation, and its take at the edges' heads

Over the stages `W1 … W3` (the buffers' contents after each stretch):

* the first stretch scatters ones over the edges' head words into zeros: the in-degrees (`inDeg`, at a node the count
  `Cert.Graph.deg`), compares them with zero and raises them to the power `-1/2`;
* the second selects between the power and zero: the normalised in-degrees (`normOf`, at a node `Cert.Graph.norm` of the
  count);
* the third is a take of that array at the edges' head words: a wrap of negative words, a gather that clamps, a range
  mask reduced along its unit axis, and a select against a not-a-number literal (`takeOf`). Where every head word names
  a node the wrap is the identity, the mask holds, and the gather reads the node the word names (`takeOf_apply`).

The stretch of the take is read in four parts, each over ANY contents before it, so that no step compares long terms;
the typed references a called function's operations are spelt over are the buffers themselves, their transports
identities. The results: `W3_v9` (the edge weights), `W3_v0` (the ones), `W3_arg1` (the tail words, untouched).
-/

open scoped BigOperators

noncomputable section

namespace Cert.KernelIdeal.KPrefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The first stretch: the in-degrees -/

/-- The in-degree scatter: ones added, over the edges' heads, into zeros. -/
def inDeg (ids : S3200000.Idx → BitVec 32) : S100000.Idx → EReal :=
  Host.scatterAdd (F := Ideal) scatter_S100000_S3200000x1_S3200000_n_0_0_1
    (broadcastInDim S100000 ![] bcast_S_S100000 (constant (F := Ideal) S_ .f32 0x00000000#32))
    (broadcastInDim S3200000x1 ![0] bcast_S3200000_S3200000x1_0 ids)
    (broadcastInDim S3200000 ![] bcast_S_S3200000 (constant (F := Ideal) S_ .f32 0x3F800000#32))

/-- The first stretch writes neither endpoint array. -/
theorem W1_arg2 (c : Dev nD) : W1 m c (Proc.devRef .tc main_arg2) = m (c, Proc.devRef .tc main_arg2) := by
  unfold W1; after_results
theorem W1_arg1 (c : Dev nD) : W1 m c (Proc.devRef .tc main_arg1) = m (c, Proc.devRef .tc main_arg1) := by
  unfold W1; after_results

/-- The ones: a splat of the literal `1.0` over the edges. -/
theorem W1_v0 (c : Dev nD) : (W1 m c (Proc.devRef .tc main_v0) : S3200000.Idx → EReal)
    = broadcastInDim S3200000 ![] bcast_S_S3200000 (constant (F := Ideal) S_ .f32 0x3F800000#32) := by
  unfold W1; after_results

/-- The comparison of the in-degrees with zero. -/
theorem W1_v5 (c : Dev nD) : (W1 m c (Proc.devRef .tc main_v5) : S100000.Idx → BitVec 1)
    = cmpf (F := Ideal) .ogt (inDeg (m (c, Proc.devRef .tc main_arg2)))
        (broadcastInDim S100000 ![] bcast_S_S100000 (constant (F := Ideal) S_ .f32 0x00000000#32)) := by
  unfold W1 inDeg; after_results

/-- The in-degrees to the power `-1/2`. -/
theorem W1_v7 (c : Dev nD) : (W1 m c (Proc.devRef .tc main_v7) : S100000.Idx → EReal)
    = Host.powf (F := Ideal) (inDeg (m (c, Proc.devRef .tc main_arg2)))
        (broadcastInDim S100000 ![] bcast_S_S100000 (constant (F := Ideal) S_ .f32 0xBF000000#32)) := by
  unfold W1 inDeg; after_results

/-- The zero the select falls back to. -/
theorem W1_cst3 (c : Dev nD) : (W1 m c (Proc.devRef .tc main_cst_3) : S_.Idx → EReal)
    = constant (F := Ideal) S_ .f32 0x00000000#32 := by
  unfold W1; after_results

/-- A flat array of edge words as one column reads, at `(e, 0)`, the word of edge `e`. -/
theorem col_apply {α : Type} (ids : S3200000.Idx → α) (e : Fin 3200000) :
    broadcastInDim S3200000x1 ![0] bcast_S3200000_S3200000x1_0 ids (ix2 e (0 : Fin 1)) = ids (ix1 e) :=
  broadcastInDim_apply _ _ _ _ (ix1 e) (fun a => match a with | ⟨0, _⟩ => rfl)

/-- At the ideal values the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The in-degree scatter at node `n` counts the edges whose head word reads `n`. -/
theorem inDeg_apply (ids : S3200000.Idx → BitVec 32) (n : Fin 100000) : inDeg ids (ix1 n) = Cert.Graph.deg ids n := by
  unfold inDeg Cert.Graph.deg
  rw [scatterAdd_ideal]
  rw [ScatterAddVec.hostScatterAdd_vec_apply scatter_S100000_S3200000x1_S3200000_n_0_0_1 rfl rfl rfl rfl]
  have h0 : broadcastInDim S100000 ![] bcast_S_S100000 (constant (F := Ideal) S_ .f32 0x00000000#32) (ix1 n) = (0 : EReal) :=
    Ideal.ofBits_zero_f32
  rw [h0]
  refine congrArg (fun t : EReal => 0 + t) ?_
  exact Finset.sum_congr (Finset.filter_congr fun e _ => by rw [col_apply]) (fun e _ => rfl)

/-! ## The second stretch: the normalised in-degrees -/

/-- The degree normalisation as the program spells it: a select on "the count is above zero" between the count's power
    `-1/2` and zero. -/
def normOf (D : S100000.Idx → EReal) : S100000.Idx → EReal :=
  select (cmpf (F := Ideal) .ogt D (broadcastInDim S100000 ![] bcast_S_S100000 (constant (F := Ideal) S_ .f32 0x00000000#32)))
    (Host.powf (F := Ideal) D (broadcastInDim S100000 ![] bcast_S_S100000 (constant (F := Ideal) S_ .f32 0xBF000000#32)))
    (broadcastInDim S100000 ![] bcast_S_S100000 (id (constant (F := Ideal) S_ .f32 0x00000000#32)))

/-- Read at node `n` it is the normalisation of the count there. -/
theorem normOf_apply (D : S100000.Idx → EReal) (n : Fin 100000) : normOf D (ix1 n) = Cert.Graph.norm (D (ix1 n)) := by
  unfold normOf
  show Scalar.select (Ideal.cmp .ogt (D (ix1 n)) (Ideal.ofBits .f32 0x00000000#32))
      (Ideal.pow (D (ix1 n)) (Ideal.ofBits .f32 0xBF000000#32)) (Ideal.ofBits .f32 0x00000000#32) = _
  rw [Ideal.ofBits_zero_f32]
  rfl

/-- The first select's printed form, its typed references' transports being identities. -/
theorem sel1_eq (D : S100000.Idx → EReal) : (((StableHlo.TRef.of main_v8 hostOps0_1._proof_16 hostOps0_1._proof_17 hostOps0_1._proof_18 : StableHlo.TRef sig ⟨S100000, .f32⟩)).toBuf (Val := Elt Ideal)
  (select (((StableHlo.TRef.of main_v5 hostOps0_1._proof_10 hostOps0_1._proof_11 hostOps0_1._proof_12 : StableHlo.TRef sig ⟨S100000, .i1⟩)).ofBuf (Val := Elt Ideal) (cmpf (F := Ideal) .ogt D (broadcastInDim S100000 ![] bcast_S_S100000 (constant (F := Ideal) S_ .f32 0x00000000#32))))
    (((StableHlo.TRef.of main_v7 hostOps0_1._proof_13 hostOps0_1._proof_14 hostOps0_1._proof_15 : StableHlo.TRef sig ⟨S100000, .f32⟩)).ofBuf (Val := Elt Ideal) (Host.powf (F := Ideal) D (broadcastInDim S100000 ![] bcast_S_S100000 (constant (F := Ideal) S_ .f32 0xBF000000#32))))
    (((StableHlo.TRef.of main_call0_v1 hostOps0_1._proof_7 hostOps0_1._proof_8 hostOps0_1._proof_9 : StableHlo.TRef sig ⟨S100000, .f32⟩)).ofBuf (Val := Elt Ideal)
   (((StableHlo.TRef.of main_call0_v1 hostOps0_1._proof_7 hostOps0_1._proof_8 hostOps0_1._proof_9 : StableHlo.TRef sig ⟨S100000, .f32⟩)).toBuf (Val := Elt Ideal)
     (broadcastInDim S100000 ![] bcast_S_S100000
       (((StableHlo.TRef.of main_call0_v0 hostOps0_1._proof_4 hostOps0_1._proof_5 hostOps0_1._proof_6 : StableHlo.TRef sig ⟨S_, .f32⟩)).ofBuf (Val := Elt Ideal)
         (((StableHlo.TRef.of main_call0_v0 hostOps0_1._proof_4 hostOps0_1._proof_5 hostOps0_1._proof_6 : StableHlo.TRef sig ⟨S_, .f32⟩)).toBuf (Val := Elt Ideal)
           (id (((StableHlo.TRef.of main_cst_3 hostOps0_1._proof_1 hostOps0_1._proof_2 hostOps0_1._proof_3 : StableHlo.TRef sig ⟨S_, .f32⟩)).ofBuf (Val := Elt Ideal) (constant (F := Ideal) S_ .f32 0x00000000#32))))))))) : S100000.Idx → EReal) = normOf D := rfl

/-- After the first select: the normalised in-degrees. -/
theorem W2_v8 (c : Dev nD) : (W2 m c (Proc.devRef .tc main_v8) : S100000.Idx → EReal)
    = normOf (inDeg (m (c, Proc.devRef .tc main_arg2))) := by
  unfold W2
  after_results
  rw [W1_v5, W1_v7, W1_cst3]
  exact sel1_eq _

/-- The second stretch writes neither endpoint array nor the ones. -/
theorem W2_arg2 (c : Dev nD) : W2 m c (Proc.devRef .tc main_arg2) = m (c, Proc.devRef .tc main_arg2) := by
  unfold W2; after_results; exact W1_arg2 m c
theorem W2_arg1 (c : Dev nD) : W2 m c (Proc.devRef .tc main_arg1) = m (c, Proc.devRef .tc main_arg1) := by
  unfold W2; after_results; exact W1_arg1 m c
theorem W2_v0 (c : Dev nD) : W2 m c (Proc.devRef .tc main_v0) = W1 m c (Proc.devRef .tc main_v0) := by
  unfold W2; after_results

/-! ## The take: the normalised in-degree of every edge's head -/

/-- A flat array over the edges as one column. -/
def colOf {α : Type} (v : S3200000.Idx → α) : S3200000x1.Idx → α :=
  broadcastInDim S3200000x1 ![0] bcast_S3200000_S3200000x1_0 v

/-- The take's wrap of negative indices: a word below zero has the extent added. -/
def wrapOf (ids : S3200000.Idx → BitVec 32) : S3200000.Idx → BitVec 32 :=
  select (cmpi .slt ids (broadcastInDim S3200000 ![] bcast_S_S3200000 (constantI S_ 32 0#32)))
    (addi ids (broadcastInDim S3200000 ![] bcast_S_S3200000 (constantI S_ 32 100000#32))) ids

/-- The take's range mask: the index is between 0 and 99999. -/
def maskOf (v : IVec S3200000x1 32) : IVec S3200000x1 1 :=
  andi (cmpi .sge v (broadcastInDim S3200000x1 ![] bcast_S_S3200000x1 (constantI S_ 32 0#32)))
    (cmpi .sle v (broadcastInDim S3200000x1 ![0, 1] bcast_S1x1_S3200000x1_0_1
      (broadcastInDim S1x1 ![1] bcast_S1_S1x1_1 (constantI S1 32 99999#32))))

/-- The take of a node array at the edges' words: wrap, gather, and the gathered entry where the mask holds, else the
    not-a-number literal. -/
def takeOf (x : S100000.Idx → EReal) (ids : S3200000.Idx → BitVec 32) : S3200000.Idx → EReal :=
  select (Host.reduce IntOp.andi (maskOf (colOf (wrapOf ids))) (constantI S_ 1 1#1) reducesTo_S3200000x1_S3200000_d1 h_S_)
    (Host.gather gather_S100000_S3200000x1_S3200000_n_0_n_n_0_1_1 x (colOf (wrapOf ids)))
    (broadcastInDim S3200000 ![] bcast_S_S3200000 (constant (F := Ideal) S_ .f32 0x7FC00000#32))

/-- A column reads, at `(e, 0)`, the flat array at `e`. -/
theorem colOf_apply {α : Type} (v : S3200000.Idx → α) (e : Fin 3200000) : colOf v (ix2 e (0 : Fin 1)) = v (ix1 e) :=
  col_apply v e

/-- Every index of a one-column array is `(e, 0)`. -/
theorem eq_ix2_col (i : S3200000x1.Idx) : i = ix2 (⟨(i 0).val, idx2_lt0 i⟩ : Fin 3200000) (0 : Fin 1) := by
  funext a
  match a with
  | ⟨0, _⟩ => rfl
  | ⟨1, _⟩ => exact Fin.ext (by have := idx2_lt1 i; show (i 1).val = 0; omega)

/-- A word that is not negative is not wrapped. -/
theorem wrapOf_apply (ids : S3200000.Idx → BitVec 32) (e : Fin 3200000) (h0 : 0 ≤ (ids (ix1 e)).toInt) :
    wrapOf ids (ix1 e) = ids (ix1 e) := by
  unfold wrapOf
  show Scalar.select (IntOp.cmpi .slt (ids (ix1 e)) 0#32) (IntOp.addi (ids (ix1 e)) 100000#32) (ids (ix1 e)) = _
  have hz : IntOp.cmpi .slt (ids (ix1 e)) 0#32 = 0#1 := eq_zero_of_ne_one (fun h => by
    have h1 := IntOp.cmpi_slt.mp h
    have z : (0#32 : BitVec 32).toInt = 0 := by decide
    omega)
  rw [hz, select_zero]

/-- The range mask holds at a word between 0 and 99999. -/
theorem maskOf_apply (v : IVec S3200000x1 32) (i : S3200000x1.Idx) (h0 : 0 ≤ (v i).toInt) (h1 : (v i).toInt ≤ 99999) :
    maskOf v i = 1#1 := by
  unfold maskOf
  show IntOp.andi (IntOp.cmpi .sge (v i) 0#32) (IntOp.cmpi .sle (v i) 99999#32) = 1#1
  have z : (0#32 : BitVec 32).toInt = 0 := by decide
  have z1 : (99999#32 : BitVec 32).toInt = 99999 := by decide
  exact IntOp.andi_eq_one.mpr ⟨IntOp.cmpi_sge.mpr (by omega), IntOp.cmpi_sle.mpr (by omega)⟩

/-- A left fold by `and` from 1 over words that are all 1 is 1. -/
theorem foldl_andi_one {ι : Type} (x : ι → BitVec 1) : ∀ (l : List ι), (∀ i ∈ l, x i = 1#1) →
    l.foldl (fun r i => IntOp.andi r (x i)) 1#1 = 1#1
  | [], _ => rfl
  | a :: l, h => by
    have e : IntOp.andi 1#1 1#1 = 1#1 := by decide
    rw [List.foldl_cons, h a List.mem_cons_self, e]
    exact foldl_andi_one x l (fun i hi => h i (List.mem_cons_of_mem _ hi))

/-- A reduce by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x _ (fun i _ => hx i)

/-- The gather of the take reads the node array at the column's word, read signed and clamped into the nodes. -/
theorem gather_apply (x : S100000.Idx → EReal) (idx : IVec S3200000x1 32) (e : Fin 3200000) :
    Host.gather gather_S100000_S3200000x1_S3200000_n_0_n_n_0_1_1 x idx (ix1 e)
      = x (ix1 (Cert.Graph.node (idx (ix2 e (0 : Fin 1))))) :=
  GatherTake.gather_flatTake_apply (N := 100000) (K := 3200000) (by decide)
    gather_S100000_S3200000x1_S3200000_n_0_n_n_0_1_1.wf x idx e

/-- THE TAKE AT EDGE `e`, the words naming nodes: the node array at the node the word names. -/
theorem takeOf_apply (x : S100000.Idx → EReal) (ids : S3200000.Idx → BitVec 32) (hd : Cert.Graph.InRange ids)
    (e : Fin 3200000) : takeOf x ids (ix1 e) = x (ix1 (Cert.Graph.node (ids (ix1 e)))) := by
  have hw : ∀ i : S3200000x1.Idx, colOf (wrapOf ids) i = ids (ix1 (⟨(i 0).val, idx2_lt0 i⟩ : Fin 3200000)) := fun i => by
    have h := congrArg (colOf (wrapOf ids)) (eq_ix2_col i)
    rw [colOf_apply, wrapOf_apply ids _ (hd _).1] at h
    exact h
  have hmask : ∀ i : S3200000x1.Idx, maskOf (colOf (wrapOf ids)) i = 1#1 := fun i =>
    maskOf_apply _ i (by rw [hw i]; exact (hd _).1) (by rw [hw i]; have := (hd ⟨(i 0).val, idx2_lt0 i⟩).2; omega)
  unfold takeOf
  rw [select_apply, reduce_andi_of_all _ _ _ _ _ hmask rfl, select_one, gather_apply, colOf_apply, wrapOf_apply ids e (hd e).1]

/-! ### The take's stretch in four parts -/

/-- The wrap of negative words. -/
def takeA : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S3200000, .i32⟩) (broadcastInDim S3200000 ![] bcast_S_S3200000),
    StableHlo.TRef.binary (.of main_arg2 : StableHlo.TRef sig ⟨S3200000, .i32⟩) (.of main_call1_v0 : StableHlo.TRef sig ⟨S3200000, .i32⟩) (.of main_call1_v1 : StableHlo.TRef sig ⟨S3200000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S3200000, .i32⟩) (broadcastInDim S3200000 ![] bcast_S_S3200000),
    StableHlo.TRef.binary (.of main_arg2 : StableHlo.TRef sig ⟨S3200000, .i32⟩) (.of main_call1_v2 : StableHlo.TRef sig ⟨S3200000, .i32⟩) (.of main_call1_v3 : StableHlo.TRef sig ⟨S3200000, .i32⟩) addi,
    StableHlo.TRef.ternary (.of main_call1_v1 : StableHlo.TRef sig ⟨S3200000, .i1⟩) (.of main_call1_v3 : StableHlo.TRef sig ⟨S3200000, .i32⟩) (.of main_arg2 : StableHlo.TRef sig ⟨S3200000, .i32⟩) (.of main_call1_v4 : StableHlo.TRef sig ⟨S3200000, .i32⟩) select ]
/-- The wrapped words as a column, and the range mask. -/
def takeB : List (HloOp τ sig (Elt Ideal)) :=
  [ StableHlo.TRef.unary main_call1_call0.v0 (.of main_call1_v5 : StableHlo.TRef sig ⟨S3200000x1, .i32⟩) (broadcastInDim S3200000x1 ![0] bcast_S3200000_S3200000x1_0),
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S3200000x1, .i32⟩) (broadcastInDim S3200000x1 ![] bcast_S_S3200000x1),
    StableHlo.TRef.binary (.of main_call1_v5 : StableHlo.TRef sig ⟨S3200000x1, .i32⟩) (.of main_call1_v6 : StableHlo.TRef sig ⟨S3200000x1, .i32⟩) (.of main_call1_v7 : StableHlo.TRef sig ⟨S3200000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S3200000x1, .i32⟩) (broadcastInDim S3200000x1 ![0, 1] bcast_S1x1_S3200000x1_0_1),
    StableHlo.TRef.binary (.of main_call1_v5 : StableHlo.TRef sig ⟨S3200000x1, .i32⟩) (.of main_call1_v9 : StableHlo.TRef sig ⟨S3200000x1, .i32⟩) (.of main_call1_v10 : StableHlo.TRef sig ⟨S3200000x1, .i1⟩) (cmpi .sle),
    StableHlo.TRef.binary (.of main_call1_v7 : StableHlo.TRef sig ⟨S3200000x1, .i1⟩) (.of main_call1_v10 : StableHlo.TRef sig ⟨S3200000x1, .i1⟩) (.of main_call1_v11 : StableHlo.TRef sig ⟨S3200000x1, .i1⟩) andi ]
/-- The mask reduced along its unit axis, and the gather. -/
def takeC : List (HloOp τ sig (Elt Ideal)) :=
  [ StableHlo.TRef.nullary (.of main_call1_c_3 : StableHlo.TRef sig ⟨S_, .i1⟩) (constantI S_ 1 1#1),
    StableHlo.TRef.binary (.of main_call1_v11 : StableHlo.TRef sig ⟨S3200000x1, .i1⟩) (.of main_call1_c_3 : StableHlo.TRef sig ⟨S_, .i1⟩) (.of main_call1_v12 : StableHlo.TRef sig ⟨S3200000, .i1⟩) (fun x v => Host.reduce IntOp.andi x v reducesTo_S3200000x1_S3200000_d1 h_S_),
    StableHlo.TRef.binary (.of main_v8 : StableHlo.TRef sig ⟨S100000, .f32⟩) (.of main_call1_v5 : StableHlo.TRef sig ⟨S3200000x1, .i32⟩) (.of main_call1_v13 : StableHlo.TRef sig ⟨S3200000, .f32⟩) (fun x i => Host.gather gather_S100000_S3200000x1_S3200000_n_0_n_n_0_1_1 x i) ]
/-- The select between the gathered entries and the not-a-number literal. -/
def takeD : List (HloOp τ sig (Elt Ideal)) :=
  [ StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v14 : StableHlo.TRef sig ⟨S3200000, .f32⟩) (broadcastInDim S3200000 ![] bcast_S_S3200000),
    StableHlo.TRef.ternary (.of main_call1_v12 : StableHlo.TRef sig ⟨S3200000, .i1⟩) (.of main_call1_v13 : StableHlo.TRef sig ⟨S3200000, .f32⟩) (.of main_call1_v14 : StableHlo.TRef sig ⟨S3200000, .f32⟩) (.of main_v9 : StableHlo.TRef sig ⟨S3200000, .f32⟩) select ]

/-- The take's stretch is its four parts in a row. -/
theorem take_split : (hostOps0_2 : List (HloOp τ sig (Elt Ideal))) = takeA ++ (takeB ++ (takeC ++ takeD)) := rfl

/-- Part one leaves the wrapped words … -/
theorem tA_v4 (V : Valuation τ sig (Elt Ideal)) :
    (StableHlo.after takeA V (Proc.devRef .tc main_call1_v4) : S3200000.Idx → BitVec 32)
      = wrapOf (V (Proc.devRef .tc main_arg2)) := by
  unfold takeA; after_results; rfl
/-- … and does not write the node array. -/
theorem tA_v8 (V : Valuation τ sig (Elt Ideal)) :
    StableHlo.after takeA V (Proc.devRef .tc main_v8) = V (Proc.devRef .tc main_v8) := by
  unfold takeA; after_results

/-- Part two leaves the wrapped words as a column … -/
theorem tB_v5 (V : Valuation τ sig (Elt Ideal)) :
    (StableHlo.after takeB V (Proc.devRef .tc main_call1_v5) : S3200000x1.Idx → BitVec 32)
      = colOf (V (Proc.devRef .tc main_call1_v4)) := by
  unfold takeB; after_results; rfl
/-- … the range mask of that column … -/
theorem tB_v11 (V : Valuation τ sig (Elt Ideal)) :
    (StableHlo.after takeB V (Proc.devRef .tc main_call1_v11) : S3200000x1.Idx → BitVec 1)
      = maskOf (colOf (V (Proc.devRef .tc main_call1_v4))) := by
  unfold takeB; after_results; rfl
/-- … and does not write the node array. -/
theorem tB_v8 (V : Valuation τ sig (Elt Ideal)) :
    StableHlo.after takeB V (Proc.devRef .tc main_v8) = V (Proc.devRef .tc main_v8) := by
  unfold takeB; after_results

/-- A two-operand operation between the mask's buffers: the typed references' transports are identities, whatever the
    operation. -/
theorem reduce_casts (R : (S3200000x1.Idx → BitVec 1) → (S_.Idx → BitVec 1) → (S3200000.Idx → BitVec 1))
    (X : S3200000x1.Idx → BitVec 1) (k : S_.Idx → BitVec 1) :
    ((StableHlo.TRef.of main_call1_v12 : StableHlo.TRef sig ⟨S3200000, .i1⟩).toBuf (Val := Elt Ideal)
      (R ((StableHlo.TRef.of main_call1_v11 : StableHlo.TRef sig ⟨S3200000x1, .i1⟩).ofBuf (Val := Elt Ideal) X)
        ((StableHlo.TRef.of main_call1_c_3 : StableHlo.TRef sig ⟨S_, .i1⟩).ofBuf (Val := Elt Ideal)
          ((StableHlo.TRef.of main_call1_c_3 : StableHlo.TRef sig ⟨S_, .i1⟩).toBuf (Val := Elt Ideal) k)))
      : S3200000.Idx → BitVec 1) = R X k := rfl

/-- Part three reduces the mask along its unit axis … -/
theorem tC_v12 (V : Valuation τ sig (Elt Ideal)) :
    (StableHlo.after takeC V (Proc.devRef .tc main_call1_v12) : S3200000.Idx → BitVec 1)
      = Host.reduce IntOp.andi (V (Proc.devRef .tc main_call1_v11) : S3200000x1.Idx → BitVec 1) (constantI S_ 1 1#1)
          reducesTo_S3200000x1_S3200000_d1 h_S_ := by
  unfold takeC; after_results
  exact reduce_casts (fun x v => Host.reduce IntOp.andi x v reducesTo_S3200000x1_S3200000_d1 h_S_) _ _
/-- … and gathers the node array at the column. -/
theorem tC_v13 (V : Valuation τ sig (Elt Ideal)) :
    (StableHlo.after takeC V (Proc.devRef .tc main_call1_v13) : S3200000.Idx → EReal)
      = Host.gather gather_S100000_S3200000x1_S3200000_n_0_n_n_0_1_1 (V (Proc.devRef .tc main_v8) : S100000.Idx → EReal)
          (V (Proc.devRef .tc main_call1_v5) : S3200000x1.Idx → BitVec 32) := by
  unfold takeC; after_results; rfl

/-- Part four selects between the gathered entries and the not-a-number literal. -/
theorem tD_v9 (V : Valuation τ sig (Elt Ideal)) :
    (StableHlo.after takeD V (Proc.devRef .tc main_v9) : S3200000.Idx → EReal)
      = select (V (Proc.devRef .tc main_call1_v12) : S3200000.Idx → BitVec 1)
          (V (Proc.devRef .tc main_call1_v13) : S3200000.Idx → EReal)
          (broadcastInDim S3200000 ![] bcast_S_S3200000 (constant (F := Ideal) S_ .f32 0x7FC00000#32)) := by
  unfold takeD; after_results; rfl

/-! ### The third stretch assembled -/

/-- The contents after the third stretch are the four parts run in a row from the contents after the second. -/
theorem W3_split (c : Dev nD) : W3 m c
    = StableHlo.after takeD (StableHlo.after takeC (StableHlo.after takeB (StableHlo.after takeA (W2 m c)))) := by
  unfold W3
  rw [take_split, StableHlo.after_append, StableHlo.after_append, StableHlo.after_append]

/-- After the third stretch: the take of the normalised in-degrees at the edges' head words. -/
theorem W3_v9_eq (c : Dev nD) : (W3 m c (Proc.devRef .tc main_v9) : S3200000.Idx → EReal)
    = takeOf (normOf (inDeg (m (c, Proc.devRef .tc main_arg2)))) (m (c, Proc.devRef .tc main_arg2)) := by
  unfold takeOf
  rw [W3_split, tD_v9, tC_v12, tC_v13, tB_v11, tB_v5, tB_v8, tA_v4, tA_v8, W2_v8, W2_arg2]

/-- THE EDGE WEIGHTS after the third stretch, the head words naming nodes: edge `e` holds the normalised in-degree of
    its head. -/
theorem W3_v9 (c : Dev nD) (hd : Cert.Graph.InRange (m ((c.tc : Thread nD τ).loc main_arg2))) :
    (W3 m c (Proc.devRef .tc main_v9) : S3200000.Idx → EReal)
      = fun e => Cert.Graph.norm (Cert.Graph.deg (m ((c.tc : Thread nD τ).loc main_arg2))
          (Cert.Graph.node ((m ((c.tc : Thread nD τ).loc main_arg2) : S3200000.Idx → BitVec 32) (ix1 (e 0))))) := by
  have hd' : Cert.Graph.InRange (m (c, Proc.devRef .tc main_arg2)) := hd
  show (W3 m c (Proc.devRef .tc main_v9) : S3200000.Idx → EReal)
      = fun e => Cert.Graph.norm (Cert.Graph.deg (m (c, Proc.devRef .tc main_arg2))
          (Cert.Graph.node ((m (c, Proc.devRef .tc main_arg2) : S3200000.Idx → BitVec 32) (ix1 (e 0)))))
  rw [W3_v9_eq]
  funext e
  have he : e = ix1 (⟨(e 0).val, (e 0).isLt⟩ : Fin 3200000) := by
    funext a
    match a with
    | ⟨0, _⟩ => rfl
  refine (congrArg (takeOf (normOf (inDeg (m (c, Proc.devRef .tc main_arg2)))) (m (c, Proc.devRef .tc main_arg2))) he).trans ?_
  rw [takeOf_apply _ _ hd' ⟨(e 0).val, (e 0).isLt⟩, normOf_apply, inDeg_apply]
  all_goals rfl

/-- The ones the first stretch made are still there after the third. -/
theorem W3_v0 (c : Dev nD) : (W3 m c (Proc.devRef .tc main_v0) : S3200000.Idx → EReal) = fun _ => Cert.Graph.one := by
  unfold W3
  after_results
  rw [W2_v0, W1_v0]
  rfl

/-- No stretch up to the third writes the tail words. -/
theorem W3_arg1 (c : Dev nD) : W3 m c (Proc.devRef .tc main_arg1) = m (c, Proc.devRef .tc main_arg1) := by
  unfold W3; after_results; exact W2_arg1 m c

end Cert.KernelIdeal.KPrefix

end
-- ==== Proof.KPrefixC.lean ====
import proofs.«401234_j27582279975440_3_alg».proof.Proof.KPrefixA
import proofs.«401234_j27582279975440_3_alg».proof.Proof.KPrefixB
import proofs.«401234_j27582279975440_3_alg».proof.Proof.Common
import proofs.«401234_j27582279975440_3_alg».proof.Proof.LibScatterAddRows
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

/-!
# The later stretches of host operations: from the per-edge weights to the padded per-node weight row

Over the stages `W3 … W10` (the buffers' contents after each stretch):

* the fourth stretch puts the ones and the per-edge weights side by side as two columns, adds these rows at the edges'
  tail words into zeros (`addedAt`: at node `n`, column 0 counts the edges out of `n` and column 1 sums their weights),
  takes the two columns as flat arrays, compares column 0 with zero and raises it to the power `-1/2`;
* the fifth selects between the power and zero: the normalised out-degrees;
* the sixth multiplies column 1 by them, the per-node weights `Cert.Graph.ws`, and casts them to one row;
* the ninth pads the row with 2400 columns of the integer `0` converted to a float, the real `0`: `Cert.Graph.wsPad`.

Each stretch is read over ANY contents before it, the fourth in three parts, so that no step compares long terms; the
operations are named as functions of the arrays they read (`rowsOf`, `addedAt`, `colZero`, `colOne`, `asRow`,
`paddedRow`) and read at an index one at a time. The result, `V_wspad_of`, takes what the first three stretches leave
(the ones, the tail words untouched, per edge the normalised in-degree of its head) as hypotheses.
-/

open scoped BigOperators

noncomputable section

namespace Cert.KernelIdeal.KPrefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The later stretches as functions of the arrays they read -/

/-- The scatter's update rows: per edge a one and the edge's weight, two columns side by side. -/
def rowsOf (ones ew : S3200000.Idx → EReal) : S3200000x2.Idx → EReal :=
  concatenate S3200000x2 1 [⟨S3200000x1, broadcastInDim S3200000x1 ![0] bcast_S3200000_S3200000x1_0 ones⟩,
    ⟨S3200000x1, broadcastInDim S3200000x1 ![0] bcast_S3200000_S3200000x1_0 ew⟩]
    concatenates_S3200000x1_S3200000x1_S3200000x2_d1

/-- The update rows added, at the edges' tail words, into zeros. -/
def addedAt (tails : S3200000.Idx → BitVec 32) (upd : S3200000x2.Idx → EReal) : S100000x2.Idx → EReal :=
  Host.scatterAdd (F := Ideal) scatter_S100000x2_S3200000x1_S3200000x2_1_0_0_1
    (broadcastInDim S100000x2 ![] bcast_S_S100000x2 (constant (F := Ideal) S_ .f32 0x00000000#32))
    (broadcastInDim S3200000x1 ![0] bcast_S3200000_S3200000x1_0 tails) upd

/-- Column 0 of a two-column node array, as a flat array. -/
def colZero (X : S100000x2.Idx → EReal) : S100000.Idx → EReal :=
  shapeCast S100000 (extractStridedSlice S100000x1 ![0, 0] X slices_S100000x2_S100000x1_0_0) shapeCasts_S100000x1_S100000
/-- Column 1 of it. -/
def colOne (X : S100000x2.Idx → EReal) : S100000.Idx → EReal :=
  shapeCast S100000 (extractStridedSlice S100000x1 ![0, 1] X slices_S100000x2_S100000x1_0_1) shapeCasts_S100000x1_S100000

/-- A flat node array as one row. -/
def asRow (Y : S100000.Idx → EReal) : S1x100000.Idx → EReal := shapeCast S1x100000 Y shapeCasts_S100000_S1x100000

/-- A row padded with 2400 columns of the integer zero converted to a float. -/
def paddedRow (R : S1x100000.Idx → EReal) : S1x102400.Idx → EReal :=
  pad S1x102400 ![0, 0] ![0, 2400] ![0, 0] R (sitofp (F := Ideal) .f32 (constantI S_ 32 0#32))
    pads_S1x100000_S1x102400_000_024000 h_S_

/-! ## The fourth stretch in three parts -/

/-- The two columns, their concatenation, the zeros, the tail words as a column, and the row scatter. -/
def rowsA : List (HloOp τ sig (Elt Ideal)) :=
  [ StableHlo.unary main_v0 main_v10 (broadcastInDim S3200000x1 ![0] bcast_S3200000_S3200000x1_0 : (⟨S3200000, .f32⟩ : BufTy).Contents (Elt Ideal) → (⟨S3200000x1, .f32⟩ : BufTy).Contents (Elt Ideal)),
    StableHlo.unary main_v9 main_v11 (broadcastInDim S3200000x1 ![0] bcast_S3200000_S3200000x1_0 : (⟨S3200000, .f32⟩ : BufTy).Contents (Elt Ideal) → (⟨S3200000x1, .f32⟩ : BufTy).Contents (Elt Ideal)),
    StableHlo.binary main_v10 main_v11 main_v12 ((fun a b => concatenate S3200000x2 1 [⟨S3200000x1, a⟩, ⟨S3200000x1, b⟩] concatenates_S3200000x1_S3200000x1_S3200000x2_d1) : (⟨S3200000x1, .f32⟩ : BufTy).Contents (Elt Ideal) → (⟨S3200000x1, .f32⟩ : BufTy).Contents (Elt Ideal) → (⟨S3200000x2, .f32⟩ : BufTy).Contents (Elt Ideal)),
    StableHlo.nullary main_cst_4 (constant (F := Ideal) S_ .f32 0x00000000#32),
    StableHlo.unary main_cst_4 main_v13 (broadcastInDim S100000x2 ![] bcast_S_S100000x2 : (⟨S_, .f32⟩ : BufTy).Contents (Elt Ideal) → (⟨S100000x2, .f32⟩ : BufTy).Contents (Elt Ideal)),
    StableHlo.unary main_arg1 main_v14 (broadcastInDim S3200000x1 ![0] bcast_S3200000_S3200000x1_0 : (⟨S3200000, .i32⟩ : BufTy).Contents (Elt Ideal) → (⟨S3200000x1, .i32⟩ : BufTy).Contents (Elt Ideal)),
    StableHlo.ternary main_v13 main_v14 main_v12 main_v15 ((fun x i u => Host.scatterAdd (F := Ideal) (φ := .f32) scatter_S100000x2_S3200000x1_S3200000x2_1_0_0_1 x i u) : (⟨S100000x2, .f32⟩ : BufTy).Contents (Elt Ideal) → (⟨S3200000x1, .i32⟩ : BufTy).Contents (Elt Ideal) → (⟨S3200000x2, .f32⟩ : BufTy).Contents (Elt Ideal) → (⟨S100000x2, .f32⟩ : BufTy).Contents (Elt Ideal)) ]
/-- The scattered array's two columns, each as a flat array. -/
def rowsB : List (HloOp τ sig (Elt Ideal)) :=
  [ StableHlo.unary main_v15 main_v16 ((extractStridedSlice S100000x1 ![0, 0] · slices_S100000x2_S100000x1_0_0) : (⟨S100000x2, .f32⟩ : BufTy).Contents (Elt Ideal) → (⟨S100000x1, .f32⟩ : BufTy).Contents (Elt Ideal)),
    StableHlo.reshape main_v16 main_v17 rfl shapeCasts_S100000x1_S100000,
    StableHlo.unary main_v15 main_v18 ((extractStridedSlice S100000x1 ![0, 1] · slices_S100000x2_S100000x1_0_1) : (⟨S100000x2, .f32⟩ : BufTy).Contents (Elt Ideal) → (⟨S100000x1, .f32⟩ : BufTy).Contents (Elt Ideal)),
    StableHlo.reshape main_v18 main_v19 rfl shapeCasts_S100000x1_S100000 ]
/-- The out-degrees compared with zero and raised to the power minus one half. -/
def rowsC : List (HloOp τ sig (Elt Ideal)) :=
  [ StableHlo.nullary main_cst_5 (constant (F := Ideal) S_ .f32 0x00000000#32),
    StableHlo.unary main_cst_5 main_v20 (broadcastInDim S100000 ![] bcast_S_S100000 : (⟨S_, .f32⟩ : BufTy).Contents (Elt Ideal) → (⟨S100000, .f32⟩ : BufTy).Contents (Elt Ideal)),
    StableHlo.binary main_v17 main_v20 main_v21 (cmpf (F := Ideal) (φ := .f32) .ogt : (⟨S100000, .f32⟩ : BufTy).Contents (Elt Ideal) → (⟨S100000, .f32⟩ : BufTy).Contents (Elt Ideal) → (⟨S100000, .i1⟩ : BufTy).Contents (Elt Ideal)),
    StableHlo.nullary main_cst_6 (constant (F := Ideal) S_ .f32 0xBF000000#32),
    StableHlo.unary main_cst_6 main_v22 (broadcastInDim S100000 ![] bcast_S_S100000 : (⟨S_, .f32⟩ : BufTy).Contents (Elt Ideal) → (⟨S100000, .f32⟩ : BufTy).Contents (Elt Ideal)),
    StableHlo.binary main_v17 main_v22 main_v23 (Host.powf (F := Ideal) (φ := .f32) : (⟨S100000, .f32⟩ : BufTy).Contents (Elt Ideal) → (⟨S100000, .f32⟩ : BufTy).Contents (Elt Ideal) → (⟨S100000, .f32⟩ : BufTy).Contents (Elt Ideal)),
    StableHlo.nullary main_cst_7 (constant (F := Ideal) S_ .f32 0x00000000#32) ]

/-- The fourth stretch is its three parts in a row. -/
theorem rows_split : (hostOps0_3 : List (HloOp τ sig (Elt Ideal))) = rowsA ++ (rowsB ++ rowsC) := rfl

/-- Part one leaves the row scatter of the two columns at the tail words. -/
theorem rA_v15 (V : Valuation τ sig (Elt Ideal)) :
    (StableHlo.after rowsA V (Proc.devRef .tc main_v15) : S100000x2.Idx → EReal)
      = addedAt (V (Proc.devRef .tc main_arg1)) (rowsOf (V (Proc.devRef .tc main_v0)) (V (Proc.devRef .tc main_v9))) := by
  unfold rowsA addedAt rowsOf; after_results

/-- Part two leaves the two columns as flat arrays. -/
theorem rB_v17 (V : Valuation τ sig (Elt Ideal)) :
    (StableHlo.after rowsB V (Proc.devRef .tc main_v17) : S100000.Idx → EReal) = colZero (V (Proc.devRef .tc main_v15)) := by
  unfold rowsB; after_results; rfl
theorem rB_v19 (V : Valuation τ sig (Elt Ideal)) :
    (StableHlo.after rowsB V (Proc.devRef .tc main_v19) : S100000.Idx → EReal) = colOne (V (Proc.devRef .tc main_v15)) := by
  unfold rowsB; after_results; rfl

/-- Part three compares column 0 with zero, raises it to the power minus one half, makes the zero literal, and does not
    write column 1. -/
theorem rC_v21 (V : Valuation τ sig (Elt Ideal)) :
    (StableHlo.after rowsC V (Proc.devRef .tc main_v21) : S100000.Idx → BitVec 1)
      = cmpf (F := Ideal) .ogt (V (Proc.devRef .tc main_v17) : S100000.Idx → EReal)
          (broadcastInDim S100000 ![] bcast_S_S100000 (constant (F := Ideal) S_ .f32 0x00000000#32)) := by
  unfold rowsC; after_results
theorem rC_v23 (V : Valuation τ sig (Elt Ideal)) :
    (StableHlo.after rowsC V (Proc.devRef .tc main_v23) : S100000.Idx → EReal)
      = Host.powf (F := Ideal) (V (Proc.devRef .tc main_v17) : S100000.Idx → EReal)
          (broadcastInDim S100000 ![] bcast_S_S100000 (constant (F := Ideal) S_ .f32 0xBF000000#32)) := by
  unfold rowsC; after_results
theorem rC_cst7 (V : Valuation τ sig (Elt Ideal)) :
    (StableHlo.after rowsC V (Proc.devRef .tc main_cst_7) : S_.Idx → EReal) = constant (F := Ideal) S_ .f32 0x00000000#32 := by
  unfold rowsC; after_results
theorem rC_v19 (V : Valuation τ sig (Elt Ideal)) :
    StableHlo.after rowsC V (Proc.devRef .tc main_v19) = V (Proc.devRef .tc main_v19) := by
  unfold rowsC; after_results

/-! ## The later stretches, each over any contents before it -/

/-- The second select, its typed references' transports being identities: between the power and the zero literal, on the
    comparison. -/
theorem s5_v24 (V : Valuation τ sig (Elt Ideal)) :
    (StableHlo.after (hostOps0_4 : List (HloOp τ sig (Elt Ideal))) V (Proc.devRef .tc main_v24) : S100000.Idx → EReal)
      = select (V (Proc.devRef .tc main_v21) : S100000.Idx → BitVec 1) (V (Proc.devRef .tc main_v23) : S100000.Idx → EReal)
          (broadcastInDim S100000 ![] bcast_S_S100000 (id (V (Proc.devRef .tc main_cst_7) : S_.Idx → EReal))) := by
  after_results; rfl
/-- It does not write column 1. -/
theorem s5_v19 (V : Valuation τ sig (Elt Ideal)) :
    StableHlo.after (hostOps0_4 : List (HloOp τ sig (Elt Ideal))) V (Proc.devRef .tc main_v19) = V (Proc.devRef .tc main_v19) := by
  after_results

/-- The product of column 1 and the normalised column 0, as one row. -/
theorem s6_v26 (V : Valuation τ sig (Elt Ideal)) :
    (StableHlo.after (hostOps0_5 : List (HloOp τ sig (Elt Ideal))) V (Proc.devRef .tc main_v26) : S1x100000.Idx → EReal)
      = asRow (mulf (F := Ideal) (φ := .f32) (V (Proc.devRef .tc main_v19) : S100000.Idx → EReal) (V (Proc.devRef .tc main_v24) : S100000.Idx → EReal)) := by
  after_results; rfl

/-- Neither the padding of the features nor the second integer zero writes the row. -/
theorem s7_v26 (V : Valuation τ sig (Elt Ideal)) :
    StableHlo.after (hostOps0_6 : List (HloOp τ sig (Elt Ideal))) V (Proc.devRef .tc main_v26) = V (Proc.devRef .tc main_v26) := by
  after_results
theorem s8_v26 (V : Valuation τ sig (Elt Ideal)) :
    StableHlo.after (hostOps0_7 : List (HloOp τ sig (Elt Ideal))) V (Proc.devRef .tc main_v26) = V (Proc.devRef .tc main_v26) := by
  after_results
/-- The second integer zero literal. -/
theorem s8_c8 (V : Valuation τ sig (Elt Ideal)) :
    (StableHlo.after (hostOps0_7 : List (HloOp τ sig (Elt Ideal))) V (Proc.devRef .tc main_c_8) : S_.Idx → BitVec 32) = constantI S_ 32 0#32 := by
  after_results

/-- The row padded with the converted integer literal, the typed references' transports being identities. -/
theorem s9_v28 (V : Valuation τ sig (Elt Ideal)) :
    (StableHlo.after (hostOps0_8 : List (HloOp τ sig (Elt Ideal))) V (Proc.devRef .tc main_v28) : S1x102400.Idx → EReal)
      = pad S1x102400 ![0, 0] ![0, 2400] ![0, 0] (V (Proc.devRef .tc main_v26) : S1x100000.Idx → EReal)
          (sitofp (F := Ideal) .f32 (V (Proc.devRef .tc main_c_8) : S_.Idx → BitVec 32))
          pads_S1x100000_S1x102400_000_024000 h_S_ := by
  after_results; rfl

/-- The bias's cast does not write the padded row. -/
theorem s10_v28 (V : Valuation τ sig (Elt Ideal)) :
    StableHlo.after (hostOps0_9 : List (HloOp τ sig (Elt Ideal))) V (Proc.devRef .tc main_v28) = V (Proc.devRef .tc main_v28) := by
  after_results

/-! ## The functions read at an index -/

/-- Column 0 of the update rows is the ones. -/
theorem rowsOf_apply0 (ones ew : S3200000.Idx → EReal) (e : Fin 3200000) :
    rowsOf ones ew (ix2 e (0 : Fin 2)) = ones (ix1 e) := by
  unfold rowsOf
  refine (concatenate_pair_apply_left _ _ _ concatenates_S3200000x1_S3200000x1_S3200000x2_d1 (ix2 e (0 : Fin 2)) rfl
    (ix2 e (0 : Fin 1)) (fun b => ?_)).trans (col_apply ones e)
  match b with
  | ⟨0, _⟩ => rfl
  | ⟨1, _⟩ => rfl

/-- Column 1 of the update rows is the weights. -/
theorem rowsOf_apply1 (ones ew : S3200000.Idx → EReal) (e : Fin 3200000) :
    rowsOf ones ew (ix2 e (1 : Fin 2)) = ew (ix1 e) := by
  unfold rowsOf
  refine (concatenate_pair_apply_right _ _ _ concatenates_S3200000x1_S3200000x1_S3200000x2_d1 (ix2 e (1 : Fin 2)) rfl rfl
    (ix2 e (0 : Fin 1)) (fun b hb => ?_) rfl).trans (col_apply ew e)
  match b, hb with
  | ⟨0, _⟩, _ => rfl
  | ⟨1, _⟩, hb => exact absurd rfl hb

/-- The row scatter at node `n`, column `j`: from zero, the sum over the edges whose tail word reads `n` of the update
    row's entry `j`. -/
theorem addedAt_apply (tails : S3200000.Idx → BitVec 32) (upd : S3200000x2.Idx → EReal) (n : Fin 100000) (j : Fin 2) :
    addedAt tails upd (ix2 n j)
      = 0 + ∑ e ∈ Finset.univ.filter (fun e : Fin 3200000 => (tails (ix1 e)).toInt = (n.val : Int)), upd (ix2 e j) := by
  unfold addedAt
  rw [scatterAdd_ideal]
  rw [ScatterAddRows.hostScatterAdd_rows_apply scatter_S100000x2_S3200000x1_S3200000x2_1_0_0_1 rfl rfl rfl rfl]
  have h0 : broadcastInDim S100000x2 ![] bcast_S_S100000x2 (constant (F := Ideal) S_ .f32 0x00000000#32) (ix2 n j)
      = (0 : EReal) := Ideal.ofBits_zero_f32
  rw [h0]
  refine congrArg (fun t : EReal => 0 + t) ?_
  exact Finset.sum_congr (Finset.filter_congr fun e _ => by rw [col_apply]) (fun e _ => rfl)

/-- Column 0 as a flat array reads column 0. -/
theorem colZero_apply (X : S100000x2.Idx → EReal) (n : Fin 100000) : colZero X (ix1 n) = X (ix2 n (0 : Fin 2)) := by
  unfold colZero
  refine (shapeCast_apply _ _ (ix1 n) (ix2 n (0 : Fin 1)) ?_).trans
    (slice2_axis1_apply 0 X slices_S100000x2_S100000x1_0_0 n (0 : Fin 1) (0 : Fin 2) rfl)
  rw [Shape.rowMajor_val_two, Shape.rowMajor_val_one]
  show n.val * 1 + 0 = n.val
  omega

/-- Column 1 as a flat array reads column 1. -/
theorem colOne_apply (X : S100000x2.Idx → EReal) (n : Fin 100000) : colOne X (ix1 n) = X (ix2 n (1 : Fin 2)) := by
  unfold colOne
  refine (shapeCast_apply _ _ (ix1 n) (ix2 n (0 : Fin 1)) ?_).trans
    (slice2_axis1_apply 1 X slices_S100000x2_S100000x1_0_1 n (0 : Fin 1) (1 : Fin 2) rfl)
  rw [Shape.rowMajor_val_two, Shape.rowMajor_val_one]
  show n.val * 1 + 0 = n.val
  omega

/-- A flat array as one row reads the array at the column. -/
theorem asRow_apply (Y : S100000.Idx → EReal) (u : Fin 1) (n : Fin 100000) : asRow Y (ix2 u n) = Y (ix1 n) :=
  shapeCast_a_1a_apply Y _ u n

/-- The padded row: a column below 100000 is the row's, a column from 100000 on is the real `0`. -/
theorem paddedRow_apply (R : S1x100000.Idx → EReal) (i : S1x102400.Idx) :
    paddedRow R i = if h : (i 1).val < 100000 then R (ix2 (0 : Fin 1) ⟨(i 1).val, h⟩) else 0 := by
  unfold paddedRow
  have hi0 : (i 0).val = 0 := by have := idx2_lt0 i; omega
  by_cases h : (i 1).val < 100000
  · rw [dif_pos h]
    exact pad_apply_of_inside _ _ _ _ _ _ _ i (ix2 (0 : Fin 1) ⟨(i 1).val, h⟩) (fun a => match a with
      | ⟨0, _⟩ => by show (i 0).val = 0 + 0 * (0 + 1); omega
      | ⟨1, _⟩ => by show (i 1).val = 0 + (i 1).val * (0 + 1); omega)
  · rw [dif_neg h]
    refine (pad_apply_of_not_inside _ _ _ _ _ _ _ i (1 : Fin 2) ?_).trans ?_
    · show ¬ (0 ≤ (i 1).val ∧ ((i 1).val - 0) % (0 + 1) = 0 ∧ ((i 1).val - 0) / (0 + 1) < 100000)
      omega
    · show ((((0#32 : BitVec 32).toInt : ℝ)) : EReal) = 0
      simp

/-! ## The stretches assembled -/

/-- The contents after the fourth stretch are its three parts run in a row from the contents after the third. -/
theorem W4_split (c : Dev nD) :
    W4 m c = StableHlo.after rowsC (StableHlo.after rowsB (StableHlo.after rowsA (W3 m c))) := by
  unfold W4
  rw [rows_split, StableHlo.after_append, StableHlo.after_append]

/-- The row scatter of the fourth stretch, over the contents after the third. -/
def scat (c : Dev nD) : S100000x2.Idx → EReal :=
  addedAt (W3 m c (Proc.devRef .tc main_arg1))
    (rowsOf (W3 m c (Proc.devRef .tc main_v0)) (W3 m c (Proc.devRef .tc main_v9)))

/-- The normalisation's printed form is `normOf`. -/
theorem normOf_form (D : S100000.Idx → EReal) :
    select (cmpf (F := Ideal) .ogt D (broadcastInDim S100000 ![] bcast_S_S100000 (constant (F := Ideal) S_ .f32 0x00000000#32)))
      (Host.powf (F := Ideal) D (broadcastInDim S100000 ![] bcast_S_S100000 (constant (F := Ideal) S_ .f32 0xBF000000#32)))
      (broadcastInDim S100000 ![] bcast_S_S100000 (id (constant (F := Ideal) S_ .f32 0x00000000#32))) = normOf D := rfl

/-- The padding's printed form is `paddedRow`. -/
theorem paddedRow_form (R : S1x100000.Idx → EReal) :
    pad S1x102400 ![0, 0] ![0, 2400] ![0, 0] R (sitofp (F := Ideal) .f32 (constantI S_ 32 0#32))
      pads_S1x100000_S1x102400_000_024000 h_S_ = paddedRow R := rfl

theorem W4_v19 (c : Dev nD) : (W4 m c (Proc.devRef .tc main_v19) : S100000.Idx → EReal) = colOne (scat m c) := by
  rw [W4_split, rC_v19, rB_v19, rA_v15]; rfl
theorem W4_v21 (c : Dev nD) : (W4 m c (Proc.devRef .tc main_v21) : S100000.Idx → BitVec 1)
    = cmpf (F := Ideal) .ogt (colZero (scat m c))
        (broadcastInDim S100000 ![] bcast_S_S100000 (constant (F := Ideal) S_ .f32 0x00000000#32)) := by
  rw [W4_split, rC_v21, rB_v17, rA_v15]; rfl
theorem W4_v23 (c : Dev nD) : (W4 m c (Proc.devRef .tc main_v23) : S100000.Idx → EReal)
    = Host.powf (F := Ideal) (colZero (scat m c))
        (broadcastInDim S100000 ![] bcast_S_S100000 (constant (F := Ideal) S_ .f32 0xBF000000#32)) := by
  rw [W4_split, rC_v23, rB_v17, rA_v15]; rfl
theorem W4_cst7 (c : Dev nD) : (W4 m c (Proc.devRef .tc main_cst_7) : S_.Idx → EReal)
    = constant (F := Ideal) S_ .f32 0x00000000#32 := by
  rw [W4_split, rC_cst7]

/-- After the fifth stretch: the normalised out-degrees, and column 1 still there. -/
theorem W5_v24 (c : Dev nD) : (W5 m c (Proc.devRef .tc main_v24) : S100000.Idx → EReal) = normOf (colZero (scat m c)) := by
  unfold W5
  rw [s5_v24, W4_v21, W4_v23, W4_cst7]
  exact normOf_form _
theorem W5_v19 (c : Dev nD) : (W5 m c (Proc.devRef .tc main_v19) : S100000.Idx → EReal) = colOne (scat m c) := by
  unfold W5
  rw [s5_v19, W4_v19]

/-- After the sixth stretch: the per-node weights as one row. -/
theorem W6_v26 (c : Dev nD) : (W6 m c (Proc.devRef .tc main_v26) : S1x100000.Idx → EReal)
    = asRow (mulf (F := Ideal) (φ := .f32) (colOne (scat m c)) (normOf (colZero (scat m c)))) := by
  unfold W6
  rw [s6_v26, W5_v19, W5_v24]
theorem W7_v26 (c : Dev nD) : (W7 m c (Proc.devRef .tc main_v26) : S1x100000.Idx → EReal)
    = asRow (mulf (F := Ideal) (φ := .f32) (colOne (scat m c)) (normOf (colZero (scat m c)))) := by
  unfold W7
  rw [s7_v26, W6_v26]
theorem W8_v26 (c : Dev nD) : (W8 m c (Proc.devRef .tc main_v26) : S1x100000.Idx → EReal)
    = asRow (mulf (F := Ideal) (φ := .f32) (colOne (scat m c)) (normOf (colZero (scat m c)))) := by
  unfold W8
  rw [s8_v26, W7_v26]
theorem W8_c8 (c : Dev nD) : (W8 m c (Proc.devRef .tc main_c_8) : S_.Idx → BitVec 32) = constantI S_ 32 0#32 := by
  unfold W8
  rw [s8_c8]

/-- After the ninth stretch: the weights' row padded. -/
theorem W9_v28 (c : Dev nD) : (W9 m c (Proc.devRef .tc main_v28) : S1x102400.Idx → EReal)
    = paddedRow (asRow (mulf (F := Ideal) (φ := .f32) (colOne (scat m c)) (normOf (colZero (scat m c))))) := by
  unfold W9
  rw [s9_v28, W8_v26, W8_c8]
  exact paddedRow_form _
theorem W10_v28 (c : Dev nD) : (W10 m c (Proc.devRef .tc main_v28) : S1x102400.Idx → EReal)
    = paddedRow (asRow (mulf (F := Ideal) (φ := .f32) (colOne (scat m c)) (normOf (colZero (scat m c))))) := by
  unfold W10
  rw [s10_v28, W9_v28]

/-! ## The padded weights in closed form -/

/-- Column 1 of the row scatter times the normalised column 0, at node `n`, is the per-node weight: the summed
    weights of the edges out of `n` times the normalised count of those edges. -/
theorem weight_apply (src dst : S3200000.Idx → BitVec 32) (n : Fin 100000) :
    colOne (addedAt src (rowsOf (fun _ => Cert.Graph.one)
        (fun e => Cert.Graph.norm (Cert.Graph.deg dst (Cert.Graph.node (dst (ix1 (e 0)))))))) (ix1 n)
      * normOf (colZero (addedAt src (rowsOf (fun _ => Cert.Graph.one)
        (fun e => Cert.Graph.norm (Cert.Graph.deg dst (Cert.Graph.node (dst (ix1 (e 0))))))))) (ix1 n)
      = Cert.Graph.ws src dst n := by
  rw [colOne_apply, normOf_apply, colZero_apply, addedAt_apply, addedAt_apply]
  unfold Cert.Graph.ws
  refine congrArg₂ (fun a b : EReal => a * b)
    (congrArg (fun t : EReal => 0 + t) (Finset.sum_congr rfl fun e _ => ?_)) (congrArg Cert.Graph.norm ?_)
  · exact rowsOf_apply1 _ _ e
  · unfold Cert.Graph.deg
    exact congrArg (fun t : EReal => 0 + t) (Finset.sum_congr rfl fun e _ => rowsOf_apply0 _ _ e)

/-- The weights' row, padded, is the per-node weights padded with zeros. -/
theorem wsPad_form (src dst : S3200000.Idx → BitVec 32) :
    paddedRow (asRow (mulf (F := Ideal) (φ := .f32)
        (colOne (addedAt src (rowsOf (fun _ => Cert.Graph.one)
          (fun e => Cert.Graph.norm (Cert.Graph.deg dst (Cert.Graph.node (dst (ix1 (e 0)))))))))
        (normOf (colZero (addedAt src (rowsOf (fun _ => Cert.Graph.one)
          (fun e => Cert.Graph.norm (Cert.Graph.deg dst (Cert.Graph.node (dst (ix1 (e 0))))))))))))
      = fun i => Cert.Graph.wsPad src dst (i 1) := by
  funext i
  rw [paddedRow_apply]
  unfold Cert.Graph.wsPad
  by_cases h : (i 1).val < 100000
  · rw [dif_pos h, dif_pos h, asRow_apply, mulf_apply]
    exact weight_apply src dst ⟨(i 1).val, h⟩
  · rw [dif_neg h, dif_neg h]

/-- THE PADDED WEIGHT ROW the region stages, given what the first three stretches leave: the ones, the tail words
    untouched, and per edge the normalised in-degree of its head. -/
theorem V_wspad_of (c : Dev nD)
    (hones : (W3 m c (Proc.devRef .tc main_v0) : S3200000.Idx → EReal) = fun _ => Cert.Graph.one)
    (hsrc : W3 m c (Proc.devRef .tc main_arg1) = m (c, Proc.devRef .tc main_arg1))
    (hw : (W3 m c (Proc.devRef .tc main_v9) : S3200000.Idx → EReal) = fun e =>
        Cert.Graph.norm (Cert.Graph.deg (m ((c.tc : Thread nD τ).loc main_arg2))
          (Cert.Graph.node ((m ((c.tc : Thread nD τ).loc main_arg2) : S3200000.Idx → BitVec 32) (ix1 (e 0)))))) :
    (V m c main_v28 : S1x102400.Idx → EReal)
      = fun i => Cert.Graph.wsPad (m ((c.tc : Thread nD τ).loc main_arg1)) (m ((c.tc : Thread nD τ).loc main_arg2)) (i 1) := by
  show V0 m c (Proc.devRef .tc main_v28) = _
  rw [V0_eq, W10_v28]
  unfold scat
  rw [hones, hsrc, hw]
  exact wsPad_form (m (c, Proc.devRef .tc main_arg1)) (m ((c.tc : Thread nD τ).loc main_arg2))

end Cert.KernelIdeal.KPrefix

end
-- ==== Proof.KValue.lean ====
/-
  The kernel program's VALUE at the ideal values, read off its frame run.

  The region: the body's value at an index (two contractions into zero accumulators, a broadcast bias row, the logistic
  function), each staged block as a stretch of its array, the block each of the 8 grid points writes back, the cover of the
  8 x 1 x 7 output array by those blocks, and so the array after the run. The tail: the ten host operations after the region
  as one function of that array and of the output matrix and bias, read at an index. The run: the frame run re-posted with the
  result buffer at that closed formula and the seven arguments as launched.
-/
import proofs.«401234_j27582279975440_3_alg».proof.Proof.Gen.KernelIdeal.Frame
import proofs.«401234_j27582279975440_3_alg».proof.Proof.Common
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

/-! ## The body's two contractions, read at an index

The body contracts the 12800 x 256 block of feature rows with the 256 x 7 gating matrix (axis 1 against axis 0), and
then the 1 x 12800 row of weights with the 12800 x 7 matrix of gates (again axis 1 against axis 0). Each contraction has
one contracted axis, so its sum over the contraction index is a sum over that axis's coordinate. -/

theorem lhs_feat_0 (i : S12800x7.Idx) (q : dot_S12800x256_S256x7_S12800x7_1_0_0_1_n_n.contr.Idx) :
    (dot_S12800x256_S256x7_S12800x7_1_0_0_1_n_n.lhsIdx i q 0).val = (i 0).val := by
  unfold DotDims.lhsIdx
  rw [dif_neg (show ¬(0 : Fin S12800x256.rank) ∈ dot_S12800x256_S256x7_S12800x7_1_0_0_1_n_n.lhsBatch by decide), dif_pos (show (0 : Fin S12800x256.rank) ∈ dot_S12800x256_S256x7_S12800x7_1_0_0_1_n_n.lhsNonContracting by decide)]
  rfl
theorem lhs_feat_1 (i : S12800x7.Idx) (q : dot_S12800x256_S256x7_S12800x7_1_0_0_1_n_n.contr.Idx) :
    (dot_S12800x256_S256x7_S12800x7_1_0_0_1_n_n.lhsIdx i q 1).val = (q ⟨0, by decide⟩).val :=
  dot_S12800x256_S256x7_S12800x7_1_0_0_1_n_n.lhsIdx_val_of_single rfl i q
theorem rhs_feat_0 (i : S12800x7.Idx) (q : dot_S12800x256_S256x7_S12800x7_1_0_0_1_n_n.contr.Idx) :
    (dot_S12800x256_S256x7_S12800x7_1_0_0_1_n_n.rhsIdx i q 0).val = (q ⟨0, by decide⟩).val :=
  dot_S12800x256_S256x7_S12800x7_1_0_0_1_n_n.rhsIdx_val_of_single rfl i q
theorem rhs_feat_1 (i : S12800x7.Idx) (q : dot_S12800x256_S256x7_S12800x7_1_0_0_1_n_n.contr.Idx) :
    (dot_S12800x256_S256x7_S12800x7_1_0_0_1_n_n.rhsIdx i q 1).val = (i 1).val := by
  unfold DotDims.rhsIdx
  rw [dif_neg (show ¬(1 : Fin S256x7.rank) ∈ dot_S12800x256_S256x7_S12800x7_1_0_0_1_n_n.rhsBatch by decide), dif_pos (show (1 : Fin S256x7.rank) ∈ dot_S12800x256_S256x7_S12800x7_1_0_0_1_n_n.rhsNonContracting by decide)]
  rfl

/-- Rows times the gating matrix, into the zero accumulator: entry (r, k) is the sum over the 256 features. -/
theorem feat_matmul_apply (lhs : FVec Ideal S12800x256 .f32) (rhs : FVec Ideal S256x7 .f32) (r : Fin 12800) (k : Fin 7) :
    matmul dot_S12800x256_S256x7_S12800x7_1_0_0_1_n_n none lhs rhs (constant (F := Ideal) S12800x7 .f32 0x00000000#32) (ix2 r k)
      = ∑ cc : Fin 256, lhs (ix2 r cc) * rhs (ix2 cc k) := by
  refine (Ideal.matmul_constant_zero_apply dot_S12800x256_S256x7_S12800x7_1_0_0_1_n_n none lhs rhs (ix2 r k)).trans ?_
  rw [← Equiv.sum_comp (ValueIdx.contrEquiv1 dot_S12800x256_S256x7_S12800x7_1_0_0_1_n_n 256 rfl rfl).symm]
  refine Finset.sum_congr rfl fun cc _ => ?_
  have hk := ValueIdx.contrEquiv1_symm_val dot_S12800x256_S256x7_S12800x7_1_0_0_1_n_n 256 rfl rfl cc
  have el : dot_S12800x256_S256x7_S12800x7_1_0_0_1_n_n.lhsIdx (ix2 r k) ((ValueIdx.contrEquiv1 dot_S12800x256_S256x7_S12800x7_1_0_0_1_n_n 256 rfl rfl).symm cc) = ix2 r cc := funext fun a => Fin.ext (by
    match a with
    | ⟨0, _⟩ => exact lhs_feat_0 _ _
    | ⟨1, _⟩ => exact (lhs_feat_1 _ _).trans hk)
  have er : dot_S12800x256_S256x7_S12800x7_1_0_0_1_n_n.rhsIdx (ix2 r k) ((ValueIdx.contrEquiv1 dot_S12800x256_S256x7_S12800x7_1_0_0_1_n_n 256 rfl rfl).symm cc) = ix2 cc k := funext fun a => Fin.ext (by
    match a with
    | ⟨0, _⟩ => exact (rhs_feat_0 _ _).trans hk
    | ⟨1, _⟩ => exact rhs_feat_1 _ _)
  rw [el, er]

theorem lhs_wsum_0 (i : S1x7.Idx) (q : dot_S1x12800_S12800x7_S1x7_1_0_0_1_n_n.contr.Idx) :
    (dot_S1x12800_S12800x7_S1x7_1_0_0_1_n_n.lhsIdx i q 0).val = (i 0).val := by
  unfold DotDims.lhsIdx
  rw [dif_neg (show ¬(0 : Fin S1x12800.rank) ∈ dot_S1x12800_S12800x7_S1x7_1_0_0_1_n_n.lhsBatch by decide), dif_pos (show (0 : Fin S1x12800.rank) ∈ dot_S1x12800_S12800x7_S1x7_1_0_0_1_n_n.lhsNonContracting by decide)]
  rfl
theorem lhs_wsum_1 (i : S1x7.Idx) (q : dot_S1x12800_S12800x7_S1x7_1_0_0_1_n_n.contr.Idx) :
    (dot_S1x12800_S12800x7_S1x7_1_0_0_1_n_n.lhsIdx i q 1).val = (q ⟨0, by decide⟩).val :=
  dot_S1x12800_S12800x7_S1x7_1_0_0_1_n_n.lhsIdx_val_of_single rfl i q
theorem rhs_wsum_0 (i : S1x7.Idx) (q : dot_S1x12800_S12800x7_S1x7_1_0_0_1_n_n.contr.Idx) :
    (dot_S1x12800_S12800x7_S1x7_1_0_0_1_n_n.rhsIdx i q 0).val = (q ⟨0, by decide⟩).val :=
  dot_S1x12800_S12800x7_S1x7_1_0_0_1_n_n.rhsIdx_val_of_single rfl i q
theorem rhs_wsum_1 (i : S1x7.Idx) (q : dot_S1x12800_S12800x7_S1x7_1_0_0_1_n_n.contr.Idx) :
    (dot_S1x12800_S12800x7_S1x7_1_0_0_1_n_n.rhsIdx i q 1).val = (i 1).val := by
  unfold DotDims.rhsIdx
  rw [dif_neg (show ¬(1 : Fin S12800x7.rank) ∈ dot_S1x12800_S12800x7_S1x7_1_0_0_1_n_n.rhsBatch by decide), dif_pos (show (1 : Fin S12800x7.rank) ∈ dot_S1x12800_S12800x7_S1x7_1_0_0_1_n_n.rhsNonContracting by decide)]
  rfl

/-- The row of weights times the gates, into the zero accumulator: entry (0, k) is the sum over the block's 12800 rows. -/
theorem wsum_matmul_apply (lhs : FVec Ideal S1x12800 .f32) (rhs : FVec Ideal S12800x7 .f32) (k : Fin 7) :
    matmul dot_S1x12800_S12800x7_S1x7_1_0_0_1_n_n none lhs rhs (constant (F := Ideal) S1x7 .f32 0x00000000#32) (ix2 (0 : Fin 1) k)
      = ∑ r : Fin 12800, lhs (ix2 (0 : Fin 1) r) * rhs (ix2 r k) := by
  refine (Ideal.matmul_constant_zero_apply dot_S1x12800_S12800x7_S1x7_1_0_0_1_n_n none lhs rhs (ix2 (0 : Fin 1) k)).trans ?_
  rw [← Equiv.sum_comp (ValueIdx.contrEquiv1 dot_S1x12800_S12800x7_S1x7_1_0_0_1_n_n 12800 rfl rfl).symm]
  refine Finset.sum_congr rfl fun r _ => ?_
  have hk := ValueIdx.contrEquiv1_symm_val dot_S1x12800_S12800x7_S1x7_1_0_0_1_n_n 12800 rfl rfl r
  have el : dot_S1x12800_S12800x7_S1x7_1_0_0_1_n_n.lhsIdx (ix2 (0 : Fin 1) k) ((ValueIdx.contrEquiv1 dot_S1x12800_S12800x7_S1x7_1_0_0_1_n_n 12800 rfl rfl).symm r) = ix2 (0 : Fin 1) r := funext fun a => Fin.ext (by
    match a with
    | ⟨0, _⟩ => exact lhs_wsum_0 _ _
    | ⟨1, _⟩ => exact (lhs_wsum_1 _ _).trans hk)
  have er : dot_S1x12800_S12800x7_S1x7_1_0_0_1_n_n.rhsIdx (ix2 (0 : Fin 1) k) ((ValueIdx.contrEquiv1 dot_S1x12800_S12800x7_S1x7_1_0_0_1_n_n 12800 rfl rfl).symm r) = ix2 r k := funext fun a => Fin.ext (by
    match a with
    | ⟨0, _⟩ => exact (rhs_wsum_0 _ _).trans hk
    | ⟨1, _⟩ => exact rhs_wsum_1 _ _)
  rw [el, er]

/-- The 1 x 7 bias row broadcast over the block's 12800 rows reads row 0. -/
theorem bias_bcast_apply (v : FVec Ideal S1x7 .f32) (h : S1x7.Broadcasts S12800x7) (r : Fin 12800) (k : Fin 7) :
    broadcastTo S12800x7 v h (ix2 r k) = v (ix2 (0 : Fin 1) k) :=
  broadcastTo_apply v h (ix2 r k) (ix2 (0 : Fin 1) k) (fun a => match a with
    | ⟨0, _⟩ => by show (0 : Nat) = if (1 : Nat) = 1 then 0 else _; rw [if_pos rfl]
    | ⟨1, _⟩ => by show k.val = if (7 : Nat) = 1 then 0 else _; rw [if_neg (by decide)]; rfl)

/-- What the body stores at (0, 0, k), from the four blocks it loads: the block's rows' gates, each the logistic function
    of the row's features against column k of the gating matrix plus the bias, weighted by the row's weight and summed
    over the block's 12800 rows. The reshapes to the same shape are identities; the last one only adds a unit axis. -/
theorem pay_apply (x0 : Vec Ideal S12800x256 .f32) (x1 : Vec Ideal S256x7 .f32) (x2 : Vec Ideal S1x7 .f32) (x3 : Vec Ideal S1x12800 .f32) (k : Fin 7) :
    k0_pay1 (F := Ideal) x0 x1 x2 x3 (ix3 (0 : Fin 1) (0 : Fin 1) k)
      = ∑ r : Fin 12800, x3 (ix2 (0 : Fin 1) r) * Ideal.logistic ((∑ cc : Fin 256, x0 (ix2 r cc) * x1 (ix2 cc k)) + x2 (ix2 (0 : Fin 1) k)) := by
  unfold k0_pay1
  refine (shapeCast_apply _ shapeCasts_S1x7_S1x1x7 (ix3 (0 : Fin 1) (0 : Fin 1) k) (ix2 (0 : Fin 1) k) ?_).trans ?_
  · rw [Shape.rowMajor_val_two, Shape.rowMajor_val_three]; rfl
  simp only [shapeCast_self]
  refine (wsum_matmul_apply _ _ k).trans ?_
  refine Finset.sum_congr rfl fun r _ => ?_
  refine congrArg (x3 (ix2 (0 : Fin 1) r) * ·) ?_
  show Ideal.logistic (matmul dot_S12800x256_S256x7_S12800x7_1_0_0_1_n_n none x0 x1 (constant (F := Ideal) S12800x7 .f32 0x00000000#32) (ix2 r k)
      + broadcastTo S12800x7 x2 broadcasts_S1x7_S12800x7 (ix2 r k)) = _
  rw [feat_matmul_apply, bias_bcast_apply]

/-! ## The region's output array

The grid has 8 points; point t stages rows 12800 t … 12800 t + 12799 of the padded features and the same stretch of the
padded weights, the whole gating matrix and bias row, and writes back block t of the 8 x 1 x 7 output. -/

variable (m : (ℓ : Loc nD τ sig) → Buf (Elt Ideal) ℓ) (ρ : Dev nD → PrngReg)

/-- the arrays the region stages, as it finds them, at their literal types -/
abbrev xP (c : Dev nD) : S102400x256.Idx → EReal := V m c main_v27
abbrev wgA (c : Dev nD) : S256x7.Idx → EReal := V m c main_arg3
abbrev bgRow (c : Dev nD) : S1x7.Idx → EReal := V m c main_v29
abbrev wsRow (c : Dev nD) : S1x102400.Idx → EReal := V m c main_v28

/-- Block g's weighted sum of gates at channel k. -/
def blockSum (c : Dev nD) (g : Fin 8) (k : Fin 7) : EReal :=
  ∑ rr : Fin 12800, wsRow m c (ix2 (0 : Fin 1) (Cert.Graph.blockRow g rr))
    * Ideal.logistic ((∑ cc : Fin 256, xP m c (ix2 (Cert.Graph.blockRow g rr) cc) * wgA m c (ix2 cc k)) + bgRow m c (ix2 (0 : Fin 1) k))

/-- The region's output array: entry (g, 0, k) is block g's sum at channel k. -/
def regionOut (c : Dev nD) : S8x1x7.Idx → EReal := fun i => blockSum m c ⟨(i 0).val, (i 0).isLt⟩ ⟨(i 2).val, (i 2).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the feature and weight windows and the output move with the point along
    their long axis; the gating matrix and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 3) = t.val ∧ win0_4.index t (1 : Fin 3) = 0 ∧ win0_4.index t (2 : Fin 3) = 0 :=
  (by decide +kernel : ∀ t : Fin grid0.N, _)

/-- Row r of the feature block at point t is row 12800 t + r of the padded features. -/
theorem xblk_apply (c : Dev nD) (t : Fin cfg0.N) (g : Fin 8) (hg : g.val = t.val) (r : Fin 12800) (cc : Fin 256) :
    (iblk m c 0 t : Vec Ideal S12800x256 .f32) (ix2 r cc) = xP m c (ix2 (Cert.Graph.blockRow g r) cc) := by
  obtain ⟨e0, e1, -⟩ := idx_facts t
  unfold iblk
  rw [View.read_apply]
  show V m c main_v27 _ = V m c main_v27 _
  congr 1
  funext a
  apply Fin.ext
  match a with
  | ⟨0, _⟩ => show win0_0.index t (0 : Fin 2) * 12800 + 1 * r.val = 12800 * g.val + r.val; rw [e0, hg]; omega
  | ⟨1, _⟩ => show win0_0.index t (1 : Fin 2) * 256 + 1 * cc.val = cc.val; rw [e1]; omega

/-- The gating matrix's block is the whole matrix. -/
theorem gblk_apply (c : Dev nD) (t : Fin cfg0.N) (cc : Fin 256) (k : Fin 7) :
    (iblk m c 1 t : Vec Ideal S256x7 .f32) (ix2 cc k) = wgA m c (ix2 cc k) := by
  obtain ⟨-, -, e0, e1, -⟩ := idx_facts t
  unfold iblk
  rw [View.read_apply]
  show V m c main_arg3 _ = V m c main_arg3 _
  congr 1
  funext a
  apply Fin.ext
  match a with
  | ⟨0, _⟩ => show win0_1.index t (0 : Fin 2) * 256 + 1 * cc.val = cc.val; rw [e0]; omega
  | ⟨1, _⟩ => show win0_1.index t (1 : Fin 2) * 7 + 1 * k.val = k.val; rw [e1]; omega

/-- The bias row's block is the whole row. -/
theorem bblk_apply (c : Dev nD) (t : Fin cfg0.N) (k : Fin 7) :
    (iblk m c 2 t : Vec Ideal S1x7 .f32) (ix2 (0 : Fin 1) k) = bgRow m c (ix2 (0 : Fin 1) k) := by
  obtain ⟨-, -, -, -, e0, e1, -⟩ := idx_facts t
  unfold iblk
  rw [View.read_apply]
  show V m c main_v29 _ = V m c main_v29 _
  congr 1
  funext a
  apply Fin.ext
  match a with
  | ⟨0, _⟩ => show win0_2.index t (0 : Fin 2) * 1 + 1 * 0 = 0; rw [e0]
  | ⟨1, _⟩ => show win0_2.index t (1 : Fin 2) * 7 + 1 * k.val = k.val; rw [e1]; omega

/-- Entry r of the weight block at point t is entry 12800 t + r of the padded weights. -/
theorem wblk_apply (c : Dev nD) (t : Fin cfg0.N) (g : Fin 8) (hg : g.val = t.val) (r : Fin 12800) :
    (iblk m c 3 t : Vec Ideal S1x12800 .f32) (ix2 (0 : Fin 1) r) = wsRow m c (ix2 (0 : Fin 1) (Cert.Graph.blockRow g r)) := by
  obtain ⟨-, -, -, -, -, -, e0, e1, -⟩ := idx_facts t
  unfold iblk
  rw [View.read_apply]
  show V m c main_v28 _ = V m c main_v28 _
  congr 1
  funext a
  apply Fin.ext
  match a with
  | ⟨0, _⟩ => show win0_3.index t (0 : Fin 2) * 1 + 1 * 0 = 0; rw [e0]
  | ⟨1, _⟩ => show win0_3.index t (1 : Fin 2) * 12800 + 1 * r.val = 12800 * g.val + r.val; rw [e1, hg]; omega

/-- What point t's body leaves at (0, 0, k) is block t's sum at channel k. -/
theorem block_value (c : Dev nD) (t : Fin cfg0.N) (g : Fin 8) (hg : g.val = t.val) (k : Fin 7) :
    k0_pay1 (F := Ideal) (iblk m c 0 t) (iblk m c 1 t) (iblk m c 2 t) (iblk m c 3 t) (ix3 (0 : Fin 1) (0 : Fin 1) k) = blockSum m c g k := by
  refine (pay_apply (iblk m c 0 t) (iblk m c 1 t) (iblk m c 2 t) (iblk m c 3 t) k).trans ?_
  unfold blockSum
  refine Finset.sum_congr rfl fun r _ => ?_
  exact congrArg₂ (· * ·) (wblk_apply m c t g hg r)
    (congrArg Ideal.logistic (congrArg₂ (· + ·)
      (Finset.sum_congr rfl fun cc _ => congrArg₂ (· * ·) (xblk_apply m c t g hg r cc) (gblk_apply m c t cc k))
      (bblk_apply m c t k)))

/-- WHAT POINT t WRITES BACK is block t of the region's output array. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero hz3]
  simp only [View.ld_unit_zero (S := S12800x256) hz2, View.ld_unit_zero (S := S256x7) hz2, View.ld_unit_zero (S := S1x7) hz2, View.ld_unit_zero (S := S1x12800) hz2]
  refine funext fun (j : S1x1x7.Idx) => ?_
  obtain ⟨a, b, k, rfl⟩ : ∃ (a : Fin 1) (b : Fin 1) (k : Fin 7), j = ix3 a b k := ⟨j 0, j 1, j 2, eq_ix3 j⟩
  obtain rfl : a = 0 := Fin.eq_zero a
  obtain rfl : b = 0 := Fin.eq_zero b
  obtain ⟨-, -, -, -, -, -, -, -, e0, e1, e2⟩ := idx_facts t
  have ht : t.val < 8 := by have h := t.isLt; have hN : cfg0.N = 8 := N_0; omega
  show k0_pay1 (F := Ideal) (iblk m c 0 t) (iblk m c 1 t) (iblk m c 2 t) (iblk m c 3 t) (ix3 (0 : Fin 1) (0 : Fin 1) k)
    = regionOut m c (((cfg0.win 4).blk t).view.emb (ix3 (0 : Fin 1) (0 : Fin 1) k))
  refine (block_value m c t ⟨t.val, ht⟩ rfl k).trans ?_
  unfold regionOut
  congr 1 <;> apply Fin.ext
  · show t.val = win0_4.index t (0 : Fin 3) * 1 + 1 * 0; rw [e0]; omega
  · show k.val = win0_4.index t (2 : Fin 3) * 7 + 1 * k.val; rw [e2]; omega

/-- An index of the output array is in point t's block iff each coordinate is in the block's range on its axis. -/
theorem mem_blk (t : Fin cfg0.N) (i : S8x1x7.Idx) :
    i ∈ ((cfg0.win 4).blk t).view.set ↔ ∀ a : Fin 3, win0_4.index t a * S1x1x7.size a ≤ (i a).val ∧ (i a).val < win0_4.index t a * S1x1x7.size a + S1x1x7.size a := by
  show i ∈ ((View.whole main_v30).slice (win0_4.rect t)).set ↔ _
  rw [View.set_slice_whole, Rect.mem_set_unit]
  exact Iff.rfl

/-- The 8 points' blocks cover the output array: entry (g, 0, k) is in point g's block. -/
theorem cover (i : S8x1x7.Idx) : ∃ t : Fin cfg0.N, (cfg0.win 4).flush t = true ∧ i ∈ ((cfg0.win 4).blk t).view.set := by
  have hN : cfg0.N = 8 := N_0
  have h0 : (i 0).val < 8 := (i 0).isLt
  have h1 : (i 1).val < 1 := (i 1).isLt
  have h2 : (i 2).val < 7 := (i 2).isLt
  obtain ⟨t, ht⟩ : ∃ t : Fin cfg0.N, t.val = (i 0).val := ⟨⟨(i 0).val, by omega⟩, rfl⟩
  obtain ⟨-, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 7 ≤ (i 2).val ∧ (i 2).val < win0_4.index t (2 : Fin 3) * 7 + 7; omega

/-- THE REGION'S OUTPUT ARRAY after the run. -/
theorem final (c : Dev nD) : (dats m 0 c).arrAt 4 cfg0.N = regionOut m c :=
  (dats m 0 c).arrAt_eq_of_cover 4 (regionOut m c) (fun t _ => flushed_eq m c t) cover

/-! ## The host operations after the region

After the region the program reshapes its 8 x 1 x 7 output to 8 x 7, sums the 8 blocks from the literal zero, lays the 7
sums out as a 1 x 7 row, contracts that row with the 7 x 512 output matrix, and adds the output bias scaled by the literal
100000.0 and reshaped to a 1 x 512 row. -/

/-- The ten operations as one function of the region's output array and the two argument arrays they read. -/
def tailFn (o : FVec Ideal S8x1x7 .f32) (w5 : FVec Ideal S7x512 .f32) (b6 : FVec Ideal S512 .f32) : FVec Ideal S1x512 .f32 :=
  addf
    (Host.dotGeneral (F := Ideal) dot_S1x7_S7x512_S1x512_1_0_0_1_n_n none
      (broadcastInDim S1x7 ![1] bcast_S7_S1x7_1
        (Host.reduceAdd (F := Ideal) (shapeCast S8x7 o shapeCasts_S8x1x7_S8x7) (constant (F := Ideal) S_ .f32 0x00000000#32) reducesTo_S8x7_S7_d0 h_S_))
      w5)
    (shapeCast S1x512 (mulf (broadcastInDim S512 ![] bcast_S_S512 (constant (F := Ideal) S_ .f32 0x47C35000#32)) b6) shapeCasts_S512_S1x512)

theorem lhs_out_0 (i : S1x512.Idx) (q : dot_S1x7_S7x512_S1x512_1_0_0_1_n_n.contr.Idx) :
    (dot_S1x7_S7x512_S1x512_1_0_0_1_n_n.lhsIdx i q 0).val = (i 0).val := by
  unfold DotDims.lhsIdx
  rw [dif_neg (show ¬(0 : Fin S1x7.rank) ∈ dot_S1x7_S7x512_S1x512_1_0_0_1_n_n.lhsBatch by decide), dif_pos (show (0 : Fin S1x7.rank) ∈ dot_S1x7_S7x512_S1x512_1_0_0_1_n_n.lhsNonContracting by decide)]
  rfl
theorem lhs_out_1 (i : S1x512.Idx) (q : dot_S1x7_S7x512_S1x512_1_0_0_1_n_n.contr.Idx) :
    (dot_S1x7_S7x512_S1x512_1_0_0_1_n_n.lhsIdx i q 1).val = (q ⟨0, by decide⟩).val :=
  dot_S1x7_S7x512_S1x512_1_0_0_1_n_n.lhsIdx_val_of_single rfl i q
theorem rhs_out_0 (i : S1x512.Idx) (q : dot_S1x7_S7x512_S1x512_1_0_0_1_n_n.contr.Idx) :
    (dot_S1x7_S7x512_S1x512_1_0_0_1_n_n.rhsIdx i q 0).val = (q ⟨0, by decide⟩).val :=
  dot_S1x7_S7x512_S1x512_1_0_0_1_n_n.rhsIdx_val_of_single rfl i q
theorem rhs_out_1 (i : S1x512.Idx) (q : dot_S1x7_S7x512_S1x512_1_0_0_1_n_n.contr.Idx) :
    (dot_S1x7_S7x512_S1x512_1_0_0_1_n_n.rhsIdx i q 1).val = (i 1).val := by
  unfold DotDims.rhsIdx
  rw [dif_neg (show ¬(1 : Fin S7x512.rank) ∈ dot_S1x7_S7x512_S1x512_1_0_0_1_n_n.rhsBatch by decide), dif_pos (show (1 : Fin S7x512.rank) ∈ dot_S1x7_S7x512_S1x512_1_0_0_1_n_n.rhsNonContracting by decide)]
  rfl

/-- The tail at output channel j: per gating channel k the 8 blocks' sums added from zero, times entry (k, j) of the
    output matrix, summed over k; plus 100000.0 times entry j of the output bias. -/
theorem tailFn_apply (o : FVec Ideal S8x1x7 .f32) (w5 : FVec Ideal S7x512 .f32) (b6 : FVec Ideal S512 .f32) (j : Fin 512) :
    tailFn o w5 b6 (ix2 (0 : Fin 1) j)
      = (∑ k : Fin 7, (0 + ∑ g : Fin 8, o (ix3 g (0 : Fin 1) k)) * w5 (ix2 k j)) + Cert.Graph.nNodes * b6 (ix1 j) := by
  unfold tailFn
  rw [addf_apply]
  refine congrArg₂ (· + ·) ?_ ?_
  · simp only [Host.dotGeneral]
    rw [Ideal.dotGeneral_apply, ← Equiv.sum_comp (ValueIdx.contrEquiv1 dot_S1x7_S7x512_S1x512_1_0_0_1_n_n 7 rfl rfl).symm]
    refine Finset.sum_congr rfl fun k _ => ?_
    have hk := ValueIdx.contrEquiv1_symm_val dot_S1x7_S7x512_S1x512_1_0_0_1_n_n 7 rfl rfl k
    have el : dot_S1x7_S7x512_S1x512_1_0_0_1_n_n.lhsIdx (ix2 (0 : Fin 1) j) ((ValueIdx.contrEquiv1 dot_S1x7_S7x512_S1x512_1_0_0_1_n_n 7 rfl rfl).symm k) = ix2 (0 : Fin 1) k := funext fun a => Fin.ext (by
      match a with
      | ⟨0, _⟩ => exact lhs_out_0 _ _
      | ⟨1, _⟩ => exact (lhs_out_1 _ _).trans hk)
    have er : dot_S1x7_S7x512_S1x512_1_0_0_1_n_n.rhsIdx (ix2 (0 : Fin 1) j) ((ValueIdx.contrEquiv1 dot_S1x7_S7x512_S1x512_1_0_0_1_n_n 7 rfl rfl).symm k) = ix2 k j := funext fun a => Fin.ext (by
      match a with
      | ⟨0, _⟩ => exact (rhs_out_0 _ _).trans hk
      | ⟨1, _⟩ => exact rhs_out_1 _ _)
    rw [el, er]
    refine congrArg (· * w5 (ix2 k j)) ?_
    refine (broadcastInDim_apply _ bcast_S7_S1x7_1 _ (ix2 (0 : Fin 1) k) (ix1 k) (fun a => match a with
      | ⟨0, _⟩ => by show k.val = if (7 : Nat) = 1 then 0 else k.val; rw [if_neg (by decide)])).trans ?_
    simp only [Host.reduceAdd, Ideal.hostReduceAdd_def]
    rw [Ideal.hostReduceAdd_single reducesTo_S8x7_S7_d0 (by decide)]
    refine congrArg₂ (· + ·) Ideal.ofBits_zero_f32 (Finset.sum_congr rfl fun g _ => ?_)
    refine shapeCast_apply o shapeCasts_S8x1x7_S8x7 _ (ix3 g (0 : Fin 1) k) ?_
    rw [Shape.rowMajor_val_two, Shape.rowMajor_val_three]
    show (g.val * 1 + 0) * 7 + k.val = g.val * 7 + k.val
    omega
  · refine (shapeCast_apply _ shapeCasts_S512_S1x512 (ix2 (0 : Fin 1) j) (ix1 j) ?_).trans ?_
    · rw [Shape.rowMajor_val_one, Shape.rowMajor_val_two]
      show j.val = 0 * 512 + j.val
      omega
    rw [mulf_apply]
    refine congrArg (· * b6 (ix1 j)) ?_
    exact (broadcastInDim_apply _ bcast_S_S512 _ (ix1 j) ix0 (fun a => a.elim0)).trans rfl

/-- The tail's result after the run: the ten operations applied to the region's output array and to the output matrix and
    bias as launched (no operation before or after the region writes those two). -/
theorem tail_value (c : Dev nD) :
    (Pipeline.afterTail₀ cfgs (dats m) 0 (V0 m) [hostOps1] c main_v38 : S1x512.Idx → EReal)
      = tailFn (regionOut m c) (m ((c.tc : Thread nD τ).loc main_arg5)) (m ((c.tc : Thread nD τ).loc main_arg6)) := by
  have e30 : Pipeline.withArrays (cfgs 0).spec c (V0 m c) (fun w => (dats m 0 c).arrAt w (cfgs 0).N) (Proc.devRef .tc main_v30) = regionOut m c :=
    (Pipeline.withArrays_arr spec0 launch0.win.arr_inj c _ _ 4).trans (final m c)
  have e5 : Pipeline.withArrays (cfgs 0).spec c (V0 m c) (fun w => (dats m 0 c).arrAt w (cfgs 0).N) (Proc.devRef .tc main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  have e6 : Pipeline.withArrays (cfgs 0).spec c (V0 m c) (fun w => (dats m 0 c).arrAt w (cfgs 0).N) (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  unfold Pipeline.afterTail₀
  show StableHlo.after (hostOps1 (F := Ideal)) _ (Proc.devRef .tc main_v38) = _
  after_results
  rw [e30, e5, e6]
  rfl

/-- The tail's result, index by index, over the arrays the region stages. -/
theorem tail_formula (c : Dev nD) :
    tailFn (regionOut m c) (m ((c.tc : Thread nD τ).loc main_arg5)) (m ((c.tc : Thread nD τ).loc main_arg6))
      = (fun i : S1x512.Idx =>
          (∑ k : Fin 7, (0 + ∑ g : Fin 8, ∑ rr : Fin 12800,
                wsRow m c (ix2 (0 : Fin 1) (Cert.Graph.blockRow g rr))
                  * Ideal.logistic ((∑ cc : Fin 256, xP m c (ix2 (Cert.Graph.blockRow g rr) cc) * wgA m c (ix2 cc k)) + bgRow m c (ix2 (0 : Fin 1) k)))
              * (m ((c.tc : Thread nD τ).loc main_arg5) : S7x512.Idx → EReal) (ix2 k (i 1)))
            + Cert.Graph.nNodes * (m ((c.tc : Thread nD τ).loc main_arg6) : S512.Idx → EReal) (ix1 (i 1))) := by
  funext i
  obtain ⟨a, j, rfl⟩ : ∃ (a : Fin 1) (j : Fin 512), i = ix2 a j := ⟨i 0, i 1, eq_ix2 i⟩
  obtain rfl : a = 0 := Fin.eq_zero a
  rw [tailFn_apply]
  unfold regionOut blockSum
  rfl

/-! ## The run, read -/

/-- At the compiled mesh, from any memory with zero counters: every weakly fair execution of the program terminates, its
    result buffer then holds, at output channel j, the sum over the 7 gating channels of (zero plus the 8 blocks' weighted gate
    sums) times the output matrix, plus 100000.0 times the output bias; and the seven arguments are as launched. -/
theorem run_value : θ_run defs (onTc (τ := τ) (main (F := Ideal))) ⟨m, fun _ => 0, ρ⟩ (fun r => ∀ c : Dev nD,
      r.2.mem ((c.tc : Thread nD τ).loc main_v38) = (fun i : S1x512.Idx =>
          (∑ k : Fin 7, (0 + ∑ g : Fin 8, ∑ rr : Fin 12800,
                wsRow m c (ix2 (0 : Fin 1) (Cert.Graph.blockRow g rr))
                  * Ideal.logistic ((∑ cc : Fin 256, xP m c (ix2 (Cert.Graph.blockRow g rr) cc) * wgA m c (ix2 cc k)) + bgRow m c (ix2 (0 : Fin 1) k)))
              * (m ((c.tc : Thread nD τ).loc main_arg5) : S7x512.Idx → EReal) (ix2 k (i 1)))
            + Cert.Graph.nNodes * (m ((c.tc : Thread nD τ).loc main_arg6) : S512.Idx → EReal) (ix1 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((((h c).2 main_v38 (Pipeline.mem_restRefs_of main_v38 (by decide) (by decide))).trans (tail_value m c)).trans (tail_formula m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.lean ====
/-
  The two programs compute one function of the graph.

  A graph of 100000 nodes and 3200000 edges `src e → dst e`, node features `x`, a gating layer into 7 channels
  `h = logistic (x · Wg + bg)`, symmetric degree normalisation `ns = outdeg ^ (-1/2)`, `nd = indeg ^ (-1/2)` (zero at a
  node of degree zero), an output layer `W, b` into 512 channels. The reference aggregates `h[src e] · ns[src e]` over the
  edges into each node `v`, scales by `nd v`, applies `W` and `b` per node, and sums over the nodes. The kernel first
  folds the graph into one weight per node, `ws n = (Σ_{e : src e = n} nd (dst e)) · ns n`, pads the nodes with zero
  weights to 8 blocks of 12800, forms per block `Σ_r ws r · h r`, sums the blocks, applies `W` once and adds
  `100000 · b`. Over the reals both are `Σ_k (Σ_e nd (dst e) · ns (src e) · h (src e) k) · W k j + 100000 · b j`:
  a sum over edges grouped by tail or by head (`Cert.Graph.kerOut_eq_refOut`), which needs every term real — the
  precondition's finiteness of the float inputs — and every endpoint word a node — its range conjuncts, outside which the
  reference's own gather and segment sums index out of range.

  The pieces: the precondition decoded (`Cert.PreFacts.of_pre`); the reference's run read at an index is `refOut`
  (`Cert.ReferenceIdeal.RefValue.result_eq`, over the reference's run and its stages); the kernel's run read at an index
  (`Cert.KernelIdeal.KValue.run_value`: the region's output array block by block, then the host lines after the region)
  over the arrays the host lines before the region leave (`Cert.KernelIdeal.KPrefix`) is `kerOut`.
-/
import proofs.«401234_j27582279975440_3_alg».proof.Defs
import proofs.«401234_j27582279975440_3_alg».proof.Proof.Gen.Kernel
import proofs.«401234_j27582279975440_3_alg».proof.Proof.Gen.Kernel.Skeleton
import proofs.«401234_j27582279975440_3_alg».proof.Proof.Gen.Kernel.Launch
import proofs.«401234_j27582279975440_3_alg».proof.Proof.Gen.Kernel.Points
import proofs.«401234_j27582279975440_3_alg».proof.Proof.Gen.Kernel.Frame
import proofs.«401234_j27582279975440_3_alg».proof.Proof.Gen.KernelIdeal
import proofs.«401234_j27582279975440_3_alg».proof.Proof.Gen.KernelIdeal.Skeleton
import proofs.«401234_j27582279975440_3_alg».proof.Proof.Gen.KernelIdeal.Launch
import proofs.«401234_j27582279975440_3_alg».proof.Proof.Gen.KernelIdeal.Points
import proofs.«401234_j27582279975440_3_alg».proof.Proof.Gen.KernelIdeal.Frame
import proofs.«401234_j27582279975440_3_alg».proof.Proof.Gen.ReferenceIdeal
import proofs.«401234_j27582279975440_3_alg».proof.Proof.Gen.Pre_finite_inputs
import proofs.«401234_j27582279975440_3_alg».proof.Proof.RefRun
import proofs.«401234_j27582279975440_3_alg».proof.Proof.RefRead
import proofs.«401234_j27582279975440_3_alg».proof.Proof.Common
import proofs.«401234_j27582279975440_3_alg».proof.Proof.Spec
import proofs.«401234_j27582279975440_3_alg».proof.Proof.PreFacts
import proofs.«401234_j27582279975440_3_alg».proof.Proof.RefValue
import proofs.«401234_j27582279975440_3_alg».proof.Proof.KPrefixA
import proofs.«401234_j27582279975440_3_alg».proof.Proof.KPrefixB
import proofs.«401234_j27582279975440_3_alg».proof.Proof.KPrefixC
import proofs.«401234_j27582279975440_3_alg».proof.Proof.KValue
import Idealize.ShloMosaic.Adequacy
import Idealize.ShloMosaic.Init

noncomputable section

namespace Cert.Proof

open Idealize.ShloMosaic Idealize.SL.Sem Idealize.ShloMosaic.TcCoe Idealize.ShloMosaic.ValueIdx Idealize.ShloMosaic.RealSums
open Cert.Graph

/-- The kernel's run read at an index is the closed formula: the arrays the region stages are the feature rows padded
    with zero rows, the gating weights as launched, the gating bias as a row, and the per-node weights padded with zeros. -/
theorem kernel_value (m : (ℓ : Loc Cert.KernelIdeal.nD Cert.KernelIdeal.τ Cert.KernelIdeal.sig) → Buf (Elt Ideal) ℓ)
    (c : Dev Cert.KernelIdeal.nD)
    (hs : InRange (m ((c.tc : Thread Cert.KernelIdeal.nD Cert.KernelIdeal.τ).loc Cert.KernelIdeal.main_arg1)))
    (hd : InRange (m ((c.tc : Thread Cert.KernelIdeal.nD Cert.KernelIdeal.τ).loc Cert.KernelIdeal.main_arg2)))
    (i : Cert.KernelIdeal.S1x512.Idx) :
    (∑ k : Fin 7, (0 + ∑ g : Fin 8, ∑ rr : Fin 12800,
          Cert.KernelIdeal.KValue.wsRow m c (ix2 (0 : Fin 1) (blockRow g rr))
            * Ideal.logistic ((∑ cc : Fin 256, Cert.KernelIdeal.KValue.xP m c (ix2 (blockRow g rr) cc) * Cert.KernelIdeal.KValue.wgA m c (ix2 cc k))
                + Cert.KernelIdeal.KValue.bgRow m c (ix2 (0 : Fin 1) k)))
        * (m ((c.tc : Thread Cert.KernelIdeal.nD Cert.KernelIdeal.τ).loc Cert.KernelIdeal.main_arg5) : Cert.KernelIdeal.S7x512.Idx → EReal) (ix2 k (i 1)))
      + nNodes * (m ((c.tc : Thread Cert.KernelIdeal.nD Cert.KernelIdeal.τ).loc Cert.KernelIdeal.main_arg6) : Cert.KernelIdeal.S512.Idx → EReal) (ix1 (i 1))
    = kerOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (i 1) := by
  unfold Cert.KernelIdeal.KValue.wsRow Cert.KernelIdeal.KValue.xP Cert.KernelIdeal.KValue.wgA Cert.KernelIdeal.KValue.bgRow
  rw [Cert.KernelIdeal.KPrefix.V_xpad, Cert.KernelIdeal.KPrefix.V_bgrow, Cert.KernelIdeal.KPrefix.V_wspad_of m c (Cert.KernelIdeal.KPrefix.W3_v0 m c) (Cert.KernelIdeal.KPrefix.W3_arg1 m c)
      (Cert.KernelIdeal.KPrefix.W3_v9 m c hd),
    Cert.KernelIdeal.Gen.V_main_arg3]
  rfl

/-- The word-level kernel terminates without a fault and leaves its arguments unchanged: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)
/-- The ideal pass rewrote nothing. -/
theorem preserves : Cert.preserves_Kernel_KernelIdeal := trivial

/-- Both programs end with the same 512 numbers: the kernel's run is `kerOut` of the arguments, the reference's is
    `refOut` of arguments that agree, and the two formulas are one function where the inputs are real and the endpoint
    words name nodes. -/
theorem algebraic : Cert.algebraic_KernelIdeal_ReferenceIdeal := by
  intro m ρ m' ρ' hpre hagree
  have hf := fun c => Cert.PreFacts.of_pre _ _ _ _ _ _ _ (hpre c)
  refine ⟨fun c => (fun i : Cert.KernelIdeal.S1x512.Idx =>
      kerOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (i 1)), ?_, ?_⟩
  · refine (θ_run Cert.KernelIdeal.defs _ _).mono (fun r h c => ⟨(h c).1.trans ?_, (h c).2⟩)
      (Cert.KernelIdeal.KValue.run_value m ρ)
    funext i
    exact kernel_value m c (hf c).2.2.2.2.2.1 (hf c).2.2.2.2.2.2 i
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v48_eq]
    funext i
    obtain ⟨a0, a1, a2, a3, a4, a5, a6⟩ := hagree c
    obtain ⟨h0, h3, h4, h5, h6, hs, hd⟩ := hf c
    rw [a0, a1, a2, a3, a4, a5, a6]
    rw [Cert.ReferenceIdeal.RefValue.result_eq _ _ _ _ _ _ _ hs i]
    exact (kerOut_eq_refOut _ _ _ _ _ _ _ h0 h3 h4 h5 h6 hs hd (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
